-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S500000x16 : Shape := ⟨2, ![500000, 16]⟩
abbrev S272x128 : Shape := ⟨2, ![272, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S500000 : Shape := ⟨1, ![500000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S500000x16 : S_.BroadcastsInDim S500000x16 (![] : Fin 0 → Fin S500000x16.rank)
  reducesTo_S500000x16_S_d0_1 : S500000x16.ReducesTo [0, 1] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S32x1 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x1 .f32 := Host.absf main_arg8
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S272x128 .f32) (main_arg5 : FVec F S128 .f32) (main_arg6 : FVec F S128x32 .f32) (main_arg7 : FVec F S32 .f32) (main_arg8 : FVec F S32x1 .f32) (main_arg9 : FVec F S1 .f32) (main_v13 : IVec S_ 1) (main_v16 : IVec S500000x16 1) : IVec S_ 1 :=
  let main_c_5 : IVec S_ 1 := constantI S_ 1 1#1
  let main_v17 : IVec S_ 1 := (fun x v => Host.reduce IntOp.andi x v reducesTo_S500000x16_S_d0_1 h_S_) main_v16 main_c_5
  let main_v18 : IVec S_ 1 := andi main_v13 main_v17
  let main_v19 : FVec F S272x128 .f32 := Host.absf main_arg4
  let main_cst_6 : FVec F S_ .f32 := constant S_ .f32 0x7F800000#32
  let main_v20 : FVec F S272x128 .f32 := broadcastInDim S272x128 ![] bcast_S_S272x128 main_cst_6
  let main_v21 : IVec S272x128 1 := cmpf .olt main_v19 main_v20
  let main_c_7 : IVec S_ 1 := constantI S_ 1 1#1
  let main_v22 : IVec S_ 1 := (fun x v => Host.reduce IntOp.andi x v reducesTo_S272x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x128 .f32) (main_arg1 : FVec F S50000x128 .f32) (main_arg2 : FVec F S500000x16 .f32) (main_arg3 : FVec F S500000x16 .f32) (main_arg4 : FVec F S272x128 .f32) (main_arg5 : FVec F S128 .f32) (main_arg6 : FVec F S128x32 .f32) (main_arg7 : FVec F S32 .f32) (main_arg8 : FVec F S32x1 .f32) (main_arg9 : FVec F S1 .f32) (main_arg10 : IVec S500000 32) (main_arg11 : IVec S500000 32) (main_arg12 : IVec S500000 32) (main_arg13 : IVec S500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S500000x16 .f32 := Host.absf main_arg2
  let main_cst_2 : FVec F S_ .f32 := constant S_ .f32 0x7F800000#32
  let main_v10 : FVec F S500000x16 .f32 := broadcastInDim S500000x16 ![] bcast_S_S500000x16 main_cst_2
  let main_v11 : IVec S500000x16 1 := cmpf .olt main_v9 main_v10
  let main_c_3 : IVec S_ 1 := constantI S_ 1 1#1
  let main_v12 : IVec S_ 1 := (fun x v => Host.reduce IntOp.andi x v reducesTo_S500000x16_S_d0_1 h_S_) main_v11 main_c_3
  let main_v13 : IVec S_ 1 := andi main_v8 main_v12
  let main_v14 : FVec F S500000x16 .f32 := Host.absf main_arg3
  let main_cst_4 : FVec F S_ .f32 := constant S_ .f32 0x7F800000#32
  let main_v15 : FVec F S500000x16 .f32 := broadcastInDim S500000x16 ![] bcast_S_S500000x16 main_cst_4
  let main_v16 : IVec S500000x16 1 := cmpf .olt main_v14 main_v15
  fn_part1 (F := F) main_arg4 main_arg5 main_arg6 main_arg7 main_arg8 main_arg9 main_v13 main_v16
-- ==== Kernel.lean ====
abbrev S100000x128 : Shape := ⟨2, ![100000, 128]⟩
abbrev S50000x128 : Shape := ⟨2, ![50000, 128]⟩
abbrev S500000x16 : Shape := ⟨2, ![500000, 16]⟩
abbrev S272x128 : Shape := ⟨2, ![272, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S500000 : Shape := ⟨1, ![500000]⟩
abbrev S_ : Shape := ⟨0, ![]⟩
abbrev S500736 : Shape := ⟨1, ![500736]⟩
abbrev S500736x16 : Shape := ⟨2, ![500736, 16]⟩
abbrev S500736x1 : Shape := ⟨2, ![500736, 1]⟩
abbrev S500736x128 : Shape := ⟨2, ![500736, 128]⟩
abbrev S1024x128 : Shape := ⟨2, ![1024, 128]⟩
abbrev S1024x16 : Shape := ⟨2, ![1024, 16]⟩
abbrev S1024x1 : Shape := ⟨2, ![1024, 1]⟩
abbrev S1024x272 : Shape := ⟨2, ![1024, 272]⟩
abbrev S1x128 : Shape := ⟨2, ![1, 128]⟩
abbrev S1024x32 : Shape := ⟨2, ![1024, 32]⟩
abbrev S1x32 : Shape := ⟨2, ![1, 32]⟩
abbrev S1x1 : Shape := ⟨2, ![1, 1]⟩
abbrev S500000x1 : Shape := ⟨2, ![500000, 1]⟩

abbrev nBuf : Space → Nat
  | .hbm => 77
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S500000x16, .f32⟩
  | .hbm, ⟨3, _⟩ => ⟨S500000x16, .f32⟩
  | .hbm, ⟨4, _⟩ => ⟨S272x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S100000x128, .bf16⟩
  | .hbm, ⟨15, _⟩ => ⟨S50000x128, .bf16⟩
  | .hbm, ⟨16, _⟩ => ⟨S272x128, .bf16⟩
  | .hbm, ⟨17, _⟩ => ⟨S128x32, .bf16⟩
  | .hbm, ⟨18, _⟩ => ⟨S32x1, .bf16⟩
  | .hbm, ⟨19, _⟩ => ⟨S_, .i32⟩
  | .hbm, ⟨20, _⟩ => ⟨S_, .i32⟩
  | .hbm, ⟨21, _⟩ => ⟨S500736, .i32⟩
  | .hbm, ⟨22, _⟩ => ⟨S_, .i32⟩
  | .hbm, ⟨23, _⟩ => ⟨S_, .i32⟩
  | .hbm, ⟨24, _⟩ => ⟨S500736, .i32⟩
  | .hbm, ⟨25, _⟩ => ⟨S_, .i32⟩
  | .hbm, ⟨26, _⟩ => ⟨S_, .i32⟩
  | .hbm, ⟨27, _⟩ => ⟨S500736, .i32⟩
  | .hbm, ⟨28, _⟩ => ⟨S_, .i32⟩
  | .hbm, ⟨29, _⟩ => ⟨S_, .i32⟩
  | .hbm, ⟨30, _⟩ => ⟨S500736, .i32⟩
  | .hbm, ⟨31, _⟩ => ⟨S_, .i32⟩
  | .hbm, ⟨32, _⟩ => ⟨S_, .f32⟩
  | .hbm, ⟨33, _⟩ => ⟨S500736x16, .f32⟩
  | .hbm, ⟨34, _⟩ => ⟨S_, .i32⟩
  | .hbm, ⟨35, _⟩ => ⟨S_, .f32⟩
  | .hbm, ⟨36, _⟩ => ⟨S500736x16, .f32⟩
  | .hbm, ⟨37, _⟩ => ⟨S_, .i32⟩
  | .hbm, ⟨38, _⟩ => ⟨S500736, .i32⟩
  | .hbm, ⟨39, _⟩ => ⟨S500736, .i1⟩
  | .hbm, ⟨40, _⟩ => ⟨S_, .i32⟩
  | .hbm, ⟨41, _⟩ => ⟨S500736, .i32⟩
  | .hbm, ⟨42, _⟩ => ⟨S500736, .i32⟩
  | .hbm, ⟨43, _⟩ => ⟨S500736, .i32⟩
  | .hbm, ⟨44, _⟩ => ⟨S500736x1, .i32⟩
  | .hbm, ⟨45, _⟩ => ⟨S500736x128, .bf16⟩
  | .hbm, ⟨46, _⟩ => ⟨S_, .i32⟩
  | .hbm, ⟨47, _⟩ => ⟨S500736, .i32⟩
  | .hbm, ⟨48, _⟩ => ⟨S500736, .i1⟩
  | .hbm, ⟨49, _⟩ => ⟨S_, .i32⟩
  | .hbm, ⟨50, _⟩ => ⟨S500736, .i32⟩
  | .hbm, ⟨51, _⟩ => ⟨S500736, .i32⟩
  | .hbm, ⟨52, _⟩ => ⟨S500736, .i32⟩
  | .hbm, ⟨53, _⟩ => ⟨S500736x1, .i32⟩
  | .hbm, ⟨54, _⟩ => ⟨S500736x128, .bf16⟩
  | .hbm, ⟨55, _⟩ => ⟨S_, .i32⟩
  | .hbm, ⟨56, _⟩ => ⟨S500736, .i32⟩
  | .hbm, ⟨57, _⟩ => ⟨S500736, .i1⟩
  | .hbm, ⟨58, _⟩ => ⟨S_, .i32⟩
  | .hbm, ⟨59, _⟩ => ⟨S500736, .i32⟩
  | .hbm, ⟨60, _⟩ => ⟨S500736, .i32⟩
  | .hbm, ⟨61, _⟩ => ⟨S500736, .i32⟩
  | .hbm, ⟨62, _⟩ => ⟨S500736x1, .i32⟩
  | .hbm, ⟨63, _⟩ => ⟨S500736x128, .bf16⟩
  | .hbm, ⟨64, _⟩ => ⟨S_, .i32⟩
  | .hbm, ⟨65, _⟩ => ⟨S500736, .i32⟩
  | .hbm, ⟨66, _⟩ => ⟨S500736, .i1⟩
  | .hbm, ⟨67, _⟩ => ⟨S_, .i32⟩
  | .hbm, ⟨68, _⟩ => ⟨S500736, .i32⟩
  | .hbm, ⟨69, _⟩ => ⟨S500736, .i32⟩
  | .hbm, ⟨70, _⟩ => ⟨S500736, .i32⟩
  | .hbm, ⟨71, _⟩ => ⟨S500736x1, .i32⟩
  | .hbm, ⟨72, _⟩ => ⟨S500736x128, .bf16⟩
  | .hbm, ⟨73, _⟩ => ⟨S500736x1, .f32⟩
  | .hbm, ⟨74, _⟩ => ⟨S500736x1, .f32⟩
  | .hbm, ⟨75, _⟩ => ⟨S500000x1, .f32⟩
  | .hbm, ⟨76, _⟩ => ⟨S500000x1, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x16, .f32⟩
  | .local _ .vmem, ⟨5, _⟩ => ⟨S1024x16, .f32⟩
  | .local _ .vmem, ⟨6, _⟩ => ⟨S272x128, .bf16⟩
  | .local _ .vmem, ⟨7, _⟩ => ⟨S128, .f32⟩
  | .local _ .vmem, ⟨8, _⟩ => ⟨S128x32, .bf16⟩
  | .local _ .vmem, ⟨9, _⟩ => ⟨S32, .f32⟩
  | .local _ .vmem, ⟨10, _⟩ => ⟨S32x1, .bf16⟩
  | .local _ .vmem, ⟨11, _⟩ => ⟨S1, .f32⟩
  | .local _ .vmem, ⟨12, _⟩ => ⟨S1024x1, .f32⟩
  | .local _ .vmem, ⟨13, _⟩ => ⟨S1024x1, .f32⟩
  | .local _ .vmem, ⟨14, _⟩ => ⟨S1024x272, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x16, .f32⟩
  | .local _ .vmem, ⟨20, _⟩ => ⟨S1024x16, .f32⟩
  | .local _ .vmem, ⟨21, _⟩ => ⟨S272x128, .bf16⟩
  | .local _ .vmem, ⟨22, _⟩ => ⟨S128, .f32⟩
  | .local _ .vmem, ⟨23, _⟩ => ⟨S128x32, .bf16⟩
  | .local _ .vmem, ⟨24, _⟩ => ⟨S32, .f32⟩
  | .local _ .vmem, ⟨25, _⟩ => ⟨S32x1, .bf16⟩
  | .local _ .vmem, ⟨26, _⟩ => ⟨S1, .f32⟩
  | .local _ .vmem, ⟨27, _⟩ => ⟨S1024x1, .f32⟩
  | .local _ .vmem, ⟨28, _⟩ => ⟨S1024x1, .f32⟩
  | .local _ .vmem, ⟨29, _⟩ => ⟨S1024x272, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_c_0 : Ref sig .tc := ⟨.hbm, 22, rfl⟩
abbrev main_call1_v0 : Ref sig .tc := ⟨.hbm, 23, rfl⟩
abbrev main_v6 : Ref sig .tc := ⟨.hbm, 24, rfl⟩
abbrev main_c_1 : Ref sig .tc := ⟨.hbm, 25, rfl⟩
abbrev main_call2_v0 : Ref sig .tc := ⟨.hbm, 26, rfl⟩
abbrev main_v7 : Ref sig .tc := ⟨.hbm, 27, rfl⟩
abbrev main_c_2 : Ref sig .tc := ⟨.hbm, 28, rfl⟩
abbrev main_call3_v0 : Ref sig .tc := ⟨.hbm, 29, rfl⟩
abbrev main_v8 : Ref sig .tc := ⟨.hbm, 30, rfl⟩
abbrev main_c_3 : Ref sig .tc := ⟨.hbm, 31, rfl⟩
abbrev main_call4_v0 : Ref sig .tc := ⟨.hbm, 32, rfl⟩
abbrev main_v9 : Ref sig .tc := ⟨.hbm, 33, rfl⟩
abbrev main_c_4 : Ref sig .tc := ⟨.hbm, 34, rfl⟩
abbrev main_call5_v0 : Ref sig .tc := ⟨.hbm, 35, rfl⟩
abbrev main_v10 : Ref sig .tc := ⟨.hbm, 36, rfl⟩
abbrev main_c_5 : Ref sig .tc := ⟨.hbm, 37, rfl⟩
abbrev main_v11 : Ref sig .tc := ⟨.hbm, 38, rfl⟩
abbrev main_v12 : Ref sig .tc := ⟨.hbm, 39, rfl⟩
abbrev main_c_6 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_7 : Ref sig .tc := ⟨.hbm, 46, rfl⟩
abbrev main_v18 : Ref sig .tc := ⟨.hbm, 47, rfl⟩
abbrev main_v19 : Ref sig .tc := ⟨.hbm, 48, rfl⟩
abbrev main_c_8 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_9 : Ref sig .tc := ⟨.hbm, 55, rfl⟩
abbrev main_v25 : Ref sig .tc := ⟨.hbm, 56, rfl⟩
abbrev main_v26 : Ref sig .tc := ⟨.hbm, 57, rfl⟩
abbrev main_c_10 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_11 : Ref sig .tc := ⟨.hbm, 64, rfl⟩
abbrev main_v32 : Ref sig .tc := ⟨.hbm, 65, rfl⟩
abbrev main_v33 : Ref sig .tc := ⟨.hbm, 66, rfl⟩
abbrev main_c_12 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S272x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![489], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S272x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x32 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bitsLt_bf16_f32 : FTy.bits .bf16 < FTy.bits .f32
  pads_S500000_S500736_07360 : S500000.Pads (![0] : Fin 1 → Nat) ![736] ![0] S500736
  h_S_ : 0 < S_.numel
  pads_S500000x16_S500736x16_07360_000 : S500000x16.Pads (![0, 0] : Fin 2 → Nat) ![736, 0] ![0, 0] S500736x16
  bcast_S_S500736 : S_.BroadcastsInDim S500736 (![] : Fin 0 → Fin S500736.rank)
  bcast_S500736_S500736x1_0 : S500736.BroadcastsInDim S500736x1 (![0] : Fin 1 → Fin S500736x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x272_S1024x128_0_0 : ∀ a, (![0, 0] : Fin 2 → Nat) a + S1024x128.size a ≤ S1024x272.size a
  packedbf16_S1024x272_S1024x128_0_0 : (Rect.unit (s := S1024x272) ![0, 0] S1024x128.size inb_S1024x272_S1024x128_0_0).PackedRows (EltTy.packing .bf16)
  inb_S1024x272_S1024x128_0_128 : ∀ a, (![0, 128] : Fin 2 → Nat) a + S1024x128.size a ≤ S1024x272.size a
  packedbf16_S1024x272_S1024x128_0_128 : (Rect.unit (s := S1024x272) ![0, 128] S1024x128.size inb_S1024x272_S1024x128_0_128).PackedRows (EltTy.packing .bf16)
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x272_S1024x16_0_256 : ∀ a, (![0, 256] : Fin 2 → Nat) a + S1024x16.size a ≤ S1024x272.size a
  packedbf16_S1024x272_S1024x16_0_256 : (Rect.unit (s := S1024x272) ![0, 256] S1024x16.size inb_S1024x272_S1024x16_0_256).PackedRows (EltTy.packing .bf16)
  inb_S1024x272_S1024x272_0_0 : ∀ a, (![0, 0] : Fin 2 → Nat) a + S1024x272.size a ≤ S1024x272.size a
  h_S1024x272 : 0 < S1024x272.numel
  inb_S272x128_S272x128_0_0 : ∀ a, (![0, 0] : Fin 2 → Nat) a + S272x128.size a ≤ S272x128.size a
  h_S272x128 : 0 < S272x128.numel
  shapeCasts_S272x128_S272x128 : S272x128.ShapeCasts S272x128
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  slices_S500736x1_S500000x1_0_0 : S500736x1.Slices ![0, 0] S500000x1
  gather_S100000x128_S500736x1_S500736x128_1_0_n_n_0_1_1128_wf : GatherDims.WF S100000x128 S500736x1 S500736x128 [1] [0] [] [0] [] 1 ![1, 128]
  gather_S50000x128_S500736x1_S500736x128_1_0_n_n_0_1_1128_wf : GatherDims.WF S50000x128 S500736x1 S500736x128 [1] [0] [] [0] [] 1 ![1, 128]
  dot_S1024x272_S272x128_S1024x128_1_0_0_1_n_n_wf : DotDims.WF S1024x272 S272x128 S1024x128 [1] [0] [0] [1] [] []
  dot_S1024x128_S128x32_S1024x32_1_0_0_1_n_n_wf : DotDims.WF S1024x128 S128x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S500736x128.size a
  hwx0_0 : ∀ i : grid0.Coords, EltTy.bits .bf16 = 32 ∨ (Rect.block (s := S500736x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S500736x128.size a
  hwx0_1 : ∀ i : grid0.Coords, EltTy.bits .bf16 = 32 ∨ (Rect.block (s := S500736x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S500736x16.size a
  hwx0_2 : ∀ i : grid0.Coords, EltTy.bits .f32 = 32 ∨ (Rect.block (s := S500736x16) S1024x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S272x128.size a ≤ S272x128.size a
  hwx0_3 : ∀ i : grid0.Coords, EltTy.bits .bf16 = 32 ∨ (Rect.block (s := S272x128) S272x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .bf16 = 32 ∨ (Rect.block (s := S128x32) S128x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .bf16 = 32 ∨ (Rect.block (s := S32x1) S32x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S500736x1.size a
  hwx0_9 : ∀ i : grid0.Coords, EltTy.bits .f32 = 32 ∨ (Rect.block (s := S500736x1) S1024x1.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S500736x128.size a
  hwx1_0 : ∀ i : grid1.Coords, EltTy.bits .bf16 = 32 ∨ (Rect.block (s := S500736x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S500736x128.size a
  hwx1_1 : ∀ i : grid1.Coords, EltTy.bits .bf16 = 32 ∨ (Rect.block (s := S500736x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S500736x16.size a
  hwx1_2 : ∀ i : grid1.Coords, EltTy.bits .f32 = 32 ∨ (Rect.block (s := S500736x16) S1024x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S272x128.size a ≤ S272x128.size a
  hwx1_3 : ∀ i : grid1.Coords, EltTy.bits .bf16 = 32 ∨ (Rect.block (s := S272x128) S272x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x32.size a ≤ S128x32.size a
  hwx1_5 : ∀ i : grid1.Coords, EltTy.bits .bf16 = 32 ∨ (Rect.block (s := S128x32) S128x32.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .bf16 = 32 ∨ (Rect.block (s := S32x1) S32x1.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x1.size a ≤ S500736x1.size a
  hwx1_9 : ∀ i : grid1.Coords, EltTy.bits .f32 = 32 ∨ (Rect.block (s := S500736x1) S1024x1.size (cc1_transform_9 i) (hinb1_9 i)).WholeWords (EltTy.packing .f32)

variable [Facts₀]

def gather_S100000x128_S500736x1_S500736x128_1_0_n_n_0_1_1128 : GatherDims S100000x128 S500736x1 S500736x128 where
  offsetDims := [1]
  collapsedSliceDims := [0]
  operandBatchingDims := []
  startIndicesBatchingDims := []
  startIndexMap := [0]
  indexVectorDim := 1
  sliceSizes := ![1, 128]
  wf := gather_S100000x128_S500736x1_S500736x128_1_0_n_n_0_1_1128_wf
def gather_S50000x128_S500736x1_S500736x128_1_0_n_n_0_1_1128 : GatherDims S50000x128 S500736x1 S500736x128 where
  offsetDims := [1]
  collapsedSliceDims := [0]
  operandBatchingDims := []
  startIndicesBatchingDims := []
  startIndexMap := [0]
  indexVectorDim := 1
  sliceSizes := ![1, 128]
  wf := gather_S50000x128_S500736x1_S500736x128_1_0_n_n_0_1_1128_wf
def dot_S1024x272_S272x128_S1024x128_1_0_0_1_n_n : DotDims S1024x272 S272x128 S1024x128 where
  lhsContracting := [1]
  rhsContracting := [0]
  lhsNonContracting := [0]
  rhsNonContracting := [1]
  lhsBatch := []
  rhsBatch := []
  wf := dot_S1024x272_S272x128_S1024x128_1_0_0_1_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_v17) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S272x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v31) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S272x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S128x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1024x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S500000x16 : Shape := ⟨2, ![500000, 16]⟩
abbrev S272x128 : Shape := ⟨2, ![272, 128]⟩
abbrev S128 : Shape := ⟨1, ![128]⟩
abbrev S128x32 : Shape := ⟨2, ![128, 32]⟩
abbrev S32 : Shape := ⟨1, ![32]⟩
abbrev S32x1 : Shape := ⟨2, ![32, 1]⟩
abbrev S1 : Shape := ⟨1, ![1]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x272 : Shape := ⟨2, ![500000, 272]⟩
abbrev S1x128 : Shape := ⟨2, ![1, 128]⟩
abbrev S500000x32 : Shape := ⟨2, ![500000, 32]⟩
abbrev S1x32 : Shape := ⟨2, ![1, 32]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S500000x16, .f32⟩
  | .hbm, ⟨3, _⟩ => ⟨S500000x16, .f32⟩
  | .hbm, ⟨4, _⟩ => ⟨S272x128, .f32⟩
  | .hbm, ⟨5, _⟩ => ⟨S128, .f32⟩
  | .hbm, ⟨6, _⟩ => ⟨S128x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x128, .f32⟩
  | .hbm, ⟨32, _⟩ => ⟨S500000x272, .f32⟩
  | .hbm, ⟨33, _⟩ => ⟨S500000x128, .f32⟩
  | .hbm, ⟨34, _⟩ => ⟨S1x128, .f32⟩
  | .hbm, ⟨35, _⟩ => ⟨S500000x128, .f32⟩
  | .hbm, ⟨36, _⟩ => ⟨S500000x128, .f32⟩
  | .hbm, ⟨37, _⟩ => ⟨S_, .f32⟩
  | .hbm, ⟨38, _⟩ => ⟨S500000x128, .f32⟩
  | .hbm, ⟨39, _⟩ => ⟨S500000x128, .f32⟩
  | .hbm, ⟨40, _⟩ => ⟨S500000x32, .f32⟩
  | .hbm, ⟨41, _⟩ => ⟨S1x32, .f32⟩
  | .hbm, ⟨42, _⟩ => ⟨S500000x32, .f32⟩
  | .hbm, ⟨43, _⟩ => ⟨S500000x32, .f32⟩
  | .hbm, ⟨44, _⟩ => ⟨S_, .f32⟩
  | .hbm, ⟨45, _⟩ => ⟨S500000x32, .f32⟩
  | .hbm, ⟨46, _⟩ => ⟨S500000x32, .f32⟩
  | .hbm, ⟨47, _⟩ => ⟨S500000x1, .f32⟩
  | .hbm, ⟨48, _⟩ => ⟨S1x1, .f32⟩
  | .hbm, ⟨49, _⟩ => ⟨S500000x1, .f32⟩
  | .hbm, ⟨50, _⟩ => ⟨S500000x1, .f32⟩
  | .hbm, ⟨51, _⟩ => ⟨S500000x1, .f32⟩
  | .hbm, ⟨52, _⟩ => ⟨S500000x1, .f32⟩
  | .hbm, ⟨53, _⟩ => ⟨S_, .f32⟩
  | .hbm, ⟨54, _⟩ => ⟨S500000x1, .f32⟩
  | .hbm, ⟨55, _⟩ => ⟨S500000x1, .f32⟩
  | .hbm, ⟨56, _⟩ => ⟨S_, .f32⟩
  | .hbm, ⟨57, _⟩ => ⟨S500000x1, .f32⟩
  | .hbm, ⟨58, _⟩ => ⟨S500000x1, .f32⟩
  | .hbm, ⟨59, _⟩ => ⟨S_, .i32⟩
  | .hbm, ⟨60, _⟩ => ⟨S500000, .i32⟩
  | .hbm, ⟨61, _⟩ => ⟨S500000, .i1⟩
  | .hbm, ⟨62, _⟩ => ⟨S_, .i32⟩
  | .hbm, ⟨63, _⟩ => ⟨S500000, .i32⟩
  | .hbm, ⟨64, _⟩ => ⟨S500000, .i32⟩
  | .hbm, ⟨65, _⟩ => ⟨S500000, .i32⟩
  | .hbm, ⟨66, _⟩ => ⟨S500000x1, .i32⟩
  | .hbm, ⟨67, _⟩ => ⟨S500000x128, .f32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x128, .f32⟩
  | .hbm, ⟨77, _⟩ => ⟨S500000x272, .f32⟩
  | .hbm, ⟨78, _⟩ => ⟨S500000x128, .f32⟩
  | .hbm, ⟨79, _⟩ => ⟨S1x128, .f32⟩
  | .hbm, ⟨80, _⟩ => ⟨S500000x128, .f32⟩
  | .hbm, ⟨81, _⟩ => ⟨S500000x128, .f32⟩
  | .hbm, ⟨82, _⟩ => ⟨S_, .f32⟩
  | .hbm, ⟨83, _⟩ => ⟨S500000x128, .f32⟩
  | .hbm, ⟨84, _⟩ => ⟨S500000x128, .f32⟩
  | .hbm, ⟨85, _⟩ => ⟨S500000x32, .f32⟩
  | .hbm, ⟨86, _⟩ => ⟨S1x32, .f32⟩
  | .hbm, ⟨87, _⟩ => ⟨S500000x32, .f32⟩
  | .hbm, ⟨88, _⟩ => ⟨S500000x32, .f32⟩
  | .hbm, ⟨89, _⟩ => ⟨S_, .f32⟩
  | .hbm, ⟨90, _⟩ => ⟨S500000x32, .f32⟩
  | .hbm, ⟨91, _⟩ => ⟨S500000x32, .f32⟩
  | .hbm, ⟨92, _⟩ => ⟨S500000x1, .f32⟩
  | .hbm, ⟨93, _⟩ => ⟨S1x1, .f32⟩
  | .hbm, ⟨94, _⟩ => ⟨S500000x1, .f32⟩
  | .hbm, ⟨95, _⟩ => ⟨S500000x1, .f32⟩
  | .hbm, ⟨96, _⟩ => ⟨S500000x1, .f32⟩
  | .hbm, ⟨97, _⟩ => ⟨S500000x1, .f32⟩
  | .hbm, ⟨98, _⟩ => ⟨S_, .f32⟩
  | .hbm, ⟨99, _⟩ => ⟨S500000x1, .f32⟩
  | .hbm, ⟨100, _⟩ => ⟨S500000x1, .f32⟩
  | .hbm, ⟨101, _⟩ => ⟨S_, .f32⟩
  | .hbm, ⟨102, _⟩ => ⟨S500000x1, .f32⟩
  | .hbm, ⟨103, _⟩ => ⟨S500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_v35 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_6 : Ref sig .tc := ⟨.hbm, 68, rfl⟩
abbrev main_v42 : Ref sig .tc := ⟨.hbm, 69, rfl⟩
abbrev main_v43 : Ref sig .tc := ⟨.hbm, 70, rfl⟩
abbrev main_c_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_cst : Ref sig .tc := ⟨.hbm, 82, rfl⟩
abbrev main_call2_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call3_cst : Ref sig .tc := ⟨.hbm, 89, rfl⟩
abbrev main_call3_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_8 : Ref sig .tc := ⟨.hbm, 98, rfl⟩
abbrev main_v66 : Ref sig .tc := ⟨.hbm, 99, rfl⟩
abbrev main_v67 : Ref sig .tc := ⟨.hbm, 100, rfl⟩
abbrev main_cst_9 : Ref sig .tc := ⟨.hbm, 101, rfl⟩
abbrev main_v68 : Ref sig .tc := ⟨.hbm, 102, rfl⟩
abbrev main_v69 : Ref sig .tc := ⟨.hbm, 103, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x16_S500000x272_d1 : Shape.Concatenates [S500000x128, S500000x128, S500000x16] S500000x272 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S500000x32 : S_.BroadcastsInDim S500000x32 (![] : Fin 0 → Fin S500000x32.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S500000x272_S272x128_S500000x128_1_0_0_1_n_n_wf : DotDims.WF S500000x272 S272x128 S500000x128 [1] [0] [0] [1] [] []
  dot_S500000x128_S128x32_S500000x32_1_0_0_1_n_n_wf : DotDims.WF S500000x128 S128x32 S500000x32 [1] [0] [0] [1] [] []
  dot_S500000x32_S32x1_S500000x1_1_0_0_1_n_n_wf : DotDims.WF S500000x32 S32x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x272_S272x128_S500000x128_1_0_0_1_n_n : DotDims S500000x272 S272x128 S500000x128 where
  lhsContracting := [1]
  rhsContracting := [0]
  lhsNonContracting := [0]
  rhsNonContracting := [1]
  lhsBatch := []
  rhsBatch := []
  wf := dot_S500000x272_S272x128_S500000x128_1_0_0_1_n_n_wf
def dot_S500000x128_S128x32_S500000x32_1_0_0_1_n_n : DotDims S500000x128 S128x32 S500000x32 where
  lhsContracting := [1]
  rhsContracting := [0]
  lhsNonContracting := [0]
  rhsNonContracting := [1]
  lhsBatch := []
  rhsBatch := []
  wf := dot_S500000x128_S128x32_S500000x32_1_0_0_1_n_n_wf
def dot_S500000x32_S32x1_S500000x1_1_0_0_1_n_n : DotDims S500000x32 S32x1 S500000x1 where
  lhsContracting := [1]
  rhsContracting := [0]
  lhsNonContracting := [0]
  rhsNonContracting := [1]
  lhsBatch := []
  rhsBatch := []
  wf := dot_S500000x32_S32x1_S500000x1_1_0_0_1_n_n_wf

class Facts : Prop extends Facts₀ where

variable [Facts]
-- ==== Proof.Spec.lean ====
/-
  The mathematics both programs compute, stated once, index by index, over the extended reals.

  For an edge `e` with endpoint indices `src e`, `dst e` into two embedding tables, the input row is the
  272-long concatenation  (row of the source table, row of the destination table, the edge's 16 features),
  where a table row is chosen the way an indexed read chooses it: a negative index is wrapped once by the
  table's height and the result is clamped into the table.  The score of the edge is a three-layer
  perceptron of that row:  logistic (relu (relu (x W1 + b1) W2 + b2) W3 + b3),  every product and sum exact.
-/
import Idealize.ShloMosaic.PureOps.Ideal
import Idealize.ShloMosaic.PureOps.Ideal.Laws
import Idealize.ShloMosaic.Lib.ValueIdx

noncomputable section

namespace EdgeMlp

open Idealize.ShloMosaic Idealize.ShloMosaic.ValueIdx

/-- A rank-2 array of extended reals. -/
abbrev Mat (n c : Nat) := (⟨2, ![n, c]⟩ : Shape).Idx → EReal
/-- A rank-1 array of extended reals. -/
abbrev Row (n : Nat) := (⟨1, ![n]⟩ : Shape).Idx → EReal
/-- A rank-1 array of 32-bit words. -/
abbrev Words (n : Nat) := (⟨1, ![n]⟩ : Shape).Idx → BitVec 32

/-- An index word wrapped once: a negative word has the table height `n` added to it. -/
def wrap (n : BitVec 32) (w : BitVec 32) : BitVec 32 :=
  Scalar.select (IntOp.cmpi .slt w 0#32) (IntOp.addi w n) w

/-- The table row an index word reads: wrapped, read as a signed number, clamped into `[0, N-1]`. -/
def rowOf (N : Nat) (hN : 0 < N) (n : BitVec 32) (w : BitVec 32) : Fin N :=
  ⟨min (wrap n w).toInt.toNat (N - 1), by omega⟩

/-- Three pieces of widths 128, 128 and 16 laid side by side. -/
def cat3 (a b : Fin 128 → EReal) (c : Fin 16 → EReal) (k : Fin 272) : EReal :=
  if h : k.val < 128 then a ⟨k.val, h⟩
  else if h2 : k.val < 256 then b ⟨k.val - 128, by omega⟩
  else c ⟨k.val - 256, by omega⟩

/-- The f32 zero word, as the extended real it denotes (never evaluated: both programs spell the same word). -/
abbrev z32 : EReal := Ideal.ofBits .f32 0x00000000#32

/-- One dense layer followed by relu, at output column `j`. -/
def dense {K N : Nat} (x : Fin K → EReal) (W : Mat K N) (b : Row N) (j : Fin N) : EReal :=
  max ((∑ k : Fin K, x k * W (ix2 k j)) + b (ix1 j)) z32

/-- The perceptron of one input row. -/
def mlp (x : Fin 272 → EReal) (W1 : Mat 272 128) (b1 : Row 128) (W2 : Mat 128 32) (b2 : Row 32)
    (W3 : Mat 32 1) (b3 : Row 1) : EReal :=
  Ideal.logistic ((∑ k : Fin 32, dense (dense x W1 b1) W2 b2 k * W3 (ix2 k (0 : Fin 1))) + b3 (ix1 (0 : Fin 1)))

/-- The input row of edge `e`: the two table rows its endpoints read, then its own features. -/
def xrow {Ns Nd E : Nat} (hs : 0 < Ns) (hd : 0 < Nd) (ns nd : BitVec 32) (Hs : Mat Ns 128) (Hd : Mat Nd 128) (ef : Mat E 16)
    (src dst : Words E) (e : Fin E) : Fin 272 → EReal :=
  cat3 (fun k => Hs (ix2 (rowOf Ns hs ns (src (ix1 e))) k)) (fun k => Hd (ix2 (rowOf Nd hd nd (dst (ix1 e))) k))
    (fun k => ef (ix2 e k))

/-- The scores of all edges of one edge type, as an `[E, 1]` array. -/
def scores {Ns Nd E : Nat} (hs : 0 < Ns) (hd : 0 < Nd) (ns nd : BitVec 32) (Hs : Mat Ns 128) (Hd : Mat Nd 128) (ef : Mat E 16)
    (src dst : Words E) (W1 : Mat 272 128) (b1 : Row 128) (W2 : Mat 128 32) (b2 : Row 32) (W3 : Mat 32 1) (b3 : Row 1) :
    Mat E 1 :=
  fun i => mlp (xrow hs hd ns nd Hs Hd ef src dst ⟨(i 0).val, idx2_lt0 i⟩) W1 b1 W2 b2 W3 b3

end EdgeMlp

end
-- ==== Proof.LibRowGather.lean ====
/-
  A row gather read at an index.

  What `x[idx]` of a table `x : [N, C]` at an integer array `idx : [R]` lowers to: a gather with offset axis 1,
  collapsed axis 0, start index map `[0]`, slice sizes `[1, C]` and the index vector on axis 1 of the
  start indices `[R, 1]`.  Result element `(e, k)` is the table at row `idx[e, 0]`, read as a signed number
  and clamped into `[0, N - 1]`, column `k`.
-/
import Idealize.ShloMosaic.PureOps.ShapeOps
import Idealize.ShloMosaic.Lib.ValueIdx

namespace RowGather

open Idealize.ShloMosaic Idealize.ShloMosaic.ValueIdx

variable {α : Type}

/-- Those dimension numbers for an operand `[N, C]`, start indices `[R, 1]` and result `[R, C]`; their
    conditions `wf` are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table at the row the start index `idx[e, 0]` names, read signed and
    clamped into `[0, N - 1]`, at column `k`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowDims N R C wf) x idx (ix2 e k)
      = x (ix2 ⟨min (idx (ix2 e (0 : Fin 1))).toInt.toNat (N - 1), by omega⟩ k) := by
  unfold Host.gather
  congr 1
  funext a
  refine Fin.ext ?_
  show (rowDims N R C wf).start (ix2 e k) idx a + (rowDims N R C wf).batchCoord (ix2 e k) a
      + (rowDims N R C wf).offCoord (ix2 e k) a = _
  rw [GatherDims.batchCoord_eq_zero _ _ _ List.not_mem_nil]
  match a with
  | ⟨0, _⟩ =>
    rw [GatherDims.offCoord_eq_zero _ _ _
      (fun h => ((GatherDims.mem_sKept _ _).mp h).1 (List.mem_singleton.mpr rfl))]
    simp only [Nat.add_zero]
    unfold GatherDims.start
    rw [dif_pos (show (⟨0, by decide⟩ : Fin 2) ∈ (rowDims N R C wf).startIndexMap from List.mem_singleton.mpr rfl)]
    have hsi : (rowDims N R C wf).siIdx (ix2 e k) ⟨List.idxOf (⟨0, by decide⟩ : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    unfold GatherDims.start
    rw [dif_neg (show ¬ (⟨1, by decide⟩ : Fin 2) ∈ (rowDims N R C wf).startIndexMap from
      fun h => absurd (congrArg Fin.val (List.mem_singleton.mp h)) Nat.one_ne_zero)]
    simp only [Nat.zero_add]
    rfl

end RowGather
-- ==== Proof.RefValue.lean ====
/-
  What the reference computes, read index by index.

  The reference handles the two edge types the same way.  For each edge it wraps the two endpoint index words once by
  the height of the table they index (a negative word has the height added), reads the two table rows those words
  name (an indexed read clamps the row number into the table), lays the two rows and the edge's own 16 features side
  by side into a row of 272 numbers, and sends that row through three dense layers: a product with the weights summed
  over the contracted column plus the bias, clipped below at zero after the first two layers, and after the third put
  through the logistic function, which it spells as 1 / (1 + exp (-x)).  Over the extended reals each of these steps
  is exact, so the array the reference ends with is, element by element, the specification's `EdgeMlp.scores` of the
  argument arrays.  The lemmas below read the stages at an index in that order, once for each edge type, and the
  last theorem restates the reference's run with its two results named that way.
-/
import proofs.«410395_j88622355186219_3_alg».proof.Proof.Gen.ReferenceIdeal.Run
import proofs.«410395_j88622355186219_3_alg».proof.Proof.Gen.ReferenceIdeal.Read
import proofs.«410395_j88622355186219_3_alg».proof.Proof.Spec
import proofs.«410395_j88622355186219_3_alg».proof.Proof.LibRowGather
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem Idealize.ShloMosaic.StableHlo

/-! ## Stages read at an index, over any arrays of the literal shapes -/

/-- The f32 word of 1.0 denotes the extended real 1. -/
theorem one_word : Ideal.ofBits .f32 0x3F800000#32 = 1 := by
  simp [Ideal.ofBits, Ideal.ieee, -EReal.coe_mul]; norm_num

/-- Three arrays of widths 128, 128 and 16 joined along axis 1, read at (e, k). -/
theorem concat3_apply {E : Nat} (a b : (⟨2, ![E, 128]⟩ : Shape).Idx → EReal) (c : (⟨2, ![E, 16]⟩ : Shape).Idx → EReal)
    (h : Shape.Concatenates [(⟨2, ![E, 128]⟩ : Shape), ⟨2, ![E, 128]⟩, ⟨2, ![E, 16]⟩] ⟨2, ![E, 272]⟩ 1)
    (e : Fin E) (k : Fin 272) :
    concatenate (⟨2, ![E, 272]⟩ : Shape) 1 [⟨⟨2, ![E, 128]⟩, a⟩, ⟨⟨2, ![E, 128]⟩, b⟩, ⟨⟨2, ![E, 16]⟩, c⟩] h (ix2 e k)
      = EdgeMlp.cat3 (fun k => a (ix2 e k)) (fun k => b (ix2 e k)) (fun k => c (ix2 e k)) k := by
  unfold EdgeMlp.cat3
  have hlen : ∀ n, n < 3 → n < ([⟨⟨2, ![E, 128]⟩, a⟩, ⟨⟨2, ![E, 128]⟩, b⟩, ⟨⟨2, ![E, 16]⟩, c⟩] :
      List ((s : Shape) × (s.Idx → EReal))).length := fun n hn => hn
  by_cases h1 : k.val < 128
  · rw [dif_pos h1]
    refine concatenate_apply_piece (t := ⟨2, ![E, 272]⟩) (1 : Fin 2) [⟨⟨2, ![E, 128]⟩, a⟩, ⟨⟨2, ![E, 128]⟩, b⟩, ⟨⟨2, ![E, 16]⟩, c⟩] h (ix2 e k) 0 (hlen 0 (by decide)) ⟨2, ![E, 128]⟩ a rfl rfl 0 rfl
      (ix2 e ⟨k.val, h1⟩) (fun b hb => ?_) ?_
    · match b with
      | ⟨0, _⟩ => rfl
      | ⟨1, _⟩ => exact absurd rfl hb
    · show 0 + k.val = k.val
      omega
  · rw [dif_neg h1]
    by_cases h2 : k.val < 256
    · rw [dif_pos h2]
      refine concatenate_apply_piece (t := ⟨2, ![E, 272]⟩) (1 : Fin 2) [⟨⟨2, ![E, 128]⟩, a⟩, ⟨⟨2, ![E, 128]⟩, b⟩, ⟨⟨2, ![E, 16]⟩, c⟩] h (ix2 e k) 1 (hlen 1 (by decide)) ⟨2, ![E, 128]⟩ b rfl rfl 128 rfl
        (ix2 e ⟨k.val - 128, by omega⟩) (fun b hb => ?_) ?_
      · match b with
        | ⟨0, _⟩ => rfl
        | ⟨1, _⟩ => exact absurd rfl hb
      · show 128 + (k.val - 128) = k.val
        omega
    · rw [dif_neg h2]
      refine concatenate_apply_piece (t := ⟨2, ![E, 272]⟩) (1 : Fin 2) [⟨⟨2, ![E, 128]⟩, a⟩, ⟨⟨2, ![E, 128]⟩, b⟩, ⟨⟨2, ![E, 16]⟩, c⟩] h (ix2 e k) 2 (hlen 2 (by decide)) ⟨2, ![E, 16]⟩ c rfl rfl 256 rfl
        (ix2 e ⟨k.val - 256, by have := k.isLt; omega⟩) (fun b hb => ?_) ?_
      · match b with
        | ⟨0, _⟩ => rfl
        | ⟨1, _⟩ => exact absurd rfl hb
      · show 256 + (k.val - 256) = k.val
        omega

/-- A column of index words: the array [E] laid out as [E, 1], read at (e, 0). -/
theorem column_apply {E : Nat} {α : Type} (hb : (⟨1, ![E]⟩ : Shape).BroadcastsInDim ⟨2, ![E, 1]⟩ (![0] : Fin 1 → Fin 2))
    (hE : E ≠ 1) (y : (⟨1, ![E]⟩ : Shape).Idx → α) (e : Fin E) (z : Fin 1) :
    broadcastInDim (⟨2, ![E, 1]⟩ : Shape) ![0] hb y (ix2 e z) = y (ix1 e) :=
  broadcastInDim_apply _ hb y (ix2 e z) (ix1 e) (fun a => match a with
    | ⟨0, _⟩ => by show e.val = if E = 1 then 0 else e.val; rw [if_neg hE])

/-- A row gather whose index words were wrapped once reads, at (e, k), the table row the specification names. -/
theorem gather_wrapped_apply {N E : Nat} (hN : 0 < N) (hE : E ≠ 1)
    (wf : GatherDims.WF ⟨2, ![N, 128]⟩ ⟨2, ![E, 1]⟩ ⟨2, ![E, 128]⟩ [1] [0] [] [0] [] 1 ![1, 128])
    (hb0 : (⟨0, ![]⟩ : Shape).BroadcastsInDim ⟨1, ![E]⟩ (![] : Fin 0 → Fin 1))
    (hb1 : (⟨1, ![E]⟩ : Shape).BroadcastsInDim ⟨2, ![E, 1]⟩ (![0] : Fin 1 → Fin 2))
    (n : BitVec 32) (x : (⟨2, ![N, 128]⟩ : Shape).Idx → EReal) (w : IVec ⟨1, ![E]⟩ 32) (e : Fin E) (k : Fin 128) :
    Host.gather (RowGather.rowDims N E 128 wf) x
        (broadcastInDim (⟨2, ![E, 1]⟩ : Shape) ![0] hb1
          (select (cmpi .slt w (broadcastInDim ⟨1, ![E]⟩ ![] hb0 (constantI ⟨0, ![]⟩ 32 0#32)))
            (addi w (broadcastInDim ⟨1, ![E]⟩ ![] hb0 (constantI ⟨0, ![]⟩ 32 n))) w)) (ix2 e k)
      = x (ix2 (EdgeMlp.rowOf N hN n (w (ix1 e))) k) := by
  have hw : broadcastInDim (⟨2, ![E, 1]⟩ : Shape) ![0] hb1
      (select (cmpi .slt w (broadcastInDim ⟨1, ![E]⟩ ![] hb0 (constantI ⟨0, ![]⟩ 32 0#32)))
        (addi w (broadcastInDim ⟨1, ![E]⟩ ![] hb0 (constantI ⟨0, ![]⟩ 32 n))) w) (ix2 e (0 : Fin 1))
      = EdgeMlp.wrap n (w (ix1 e)) := (column_apply hb1 hE _ e 0).trans rfl
  refine (RowGather.gather_rows_apply hN wf x _ e k).trans ?_
  refine congrArg x (congrArg (fun r : Fin N => ix2 r k) (Fin.ext ?_))
  exact congrArg (fun v : BitVec 32 => min v.toInt.toNat (N - 1)) hw

/-! ## The edge type (user, orders, item) -/

namespace Orders

section
variable (x0 : (⟨S100000x128, .f32⟩ : BufTy).Contents (Elt Ideal)) (x1 : (⟨S50000x128, .f32⟩ : BufTy).Contents (Elt Ideal)) (x2 : (⟨S500000x16, .f32⟩ : BufTy).Contents (Elt Ideal)) (x4 : (⟨S272x128, .f32⟩ : BufTy).Contents (Elt Ideal)) (x5 : (⟨S128, .f32⟩ : BufTy).Contents (Elt Ideal)) (x6 : (⟨S128x32, .f32⟩ : BufTy).Contents (Elt Ideal)) (x7 : (⟨S32, .f32⟩ : BufTy).Contents (Elt Ideal)) (x8 : (⟨S32x1, .f32⟩ : BufTy).Contents (Elt Ideal)) (x9 : (⟨S1, .f32⟩ : BufTy).Contents (Elt Ideal)) (x10 : (⟨S500000, .i32⟩ : BufTy).Contents (Elt Ideal)) (x11 : (⟨S500000, .i32⟩ : BufTy).Contents (Elt Ideal))

/-- The source endpoint's gathered row: the index word is wrapped by the table height 100000, laid out as a column and
    read as a row number of the source table. -/
theorem src_row (e : Fin 500000) (k : Fin 128) :
    val_main_v6 (F := Ideal) x0 x10 (ix2 e k) = x0 (ix2 (EdgeMlp.rowOf 100000 (by decide) 100000#32 (x10 (ix1 e))) k) :=
  gather_wrapped_apply (by decide) (by decide) gather_S100000x128_S500000x1_S500000x128_1_0_n_n_0_1_1128_wf bcast_S_S500000 bcast_S500000_S500000x1_0
    100000#32 x0 x10 e k

/-- The destination endpoint's gathered row, likewise with the table height 50000. -/
theorem dst_row (e : Fin 500000) (k : Fin 128) :
    val_main_v13 (F := Ideal) x1 x11 (ix2 e k) = x1 (ix2 (EdgeMlp.rowOf 50000 (by decide) 50000#32 (x11 (ix1 e))) k) :=
  gather_wrapped_apply (by decide) (by decide) gather_S50000x128_S500000x1_S500000x128_1_0_n_n_0_1_1128_wf bcast_S_S500000 bcast_S500000_S500000x1_0
    50000#32 x1 x11 e k

/-- The concatenated input row of edge `e` is the specification's input row. -/
theorem input_row (e : Fin 500000) :
    (fun k : Fin 272 => val_main_v14 (F := Ideal) x0 x1 x2 x10 x11 (ix2 e k))
      = EdgeMlp.xrow (Ns := 100000) (Nd := 50000) (E := 500000) (by decide) (by decide) 100000#32 50000#32 x0 x1 x2 x10 x11 e := by
  funext k
  refine (concat3_apply (E := 500000) (val_main_v6 (F := Ideal) x0 x10) (val_main_v13 (F := Ideal) x1 x11) x2
    concatenates_S500000x128_S500000x128_S500000x16_S500000x272_d1 e k).trans ?_
  unfold EdgeMlp.xrow
  simp only [src_row, dst_row]

/-- The first layer at (e, j): the sum over the 272 input columns, plus the bias, clipped below at zero. -/
theorem layer1 (e : Fin 500000) (j : Fin 128) :
    val_main_v19 (F := Ideal) x0 x1 x2 x4 x5 x10 x11 (ix2 e j)
      = EdgeMlp.dense (EdgeMlp.xrow (Ns := 100000) (Nd := 50000) (E := 500000) (by decide) (by decide) 100000#32 50000#32 x0 x1 x2 x10 x11 e) x4 x5 j := by
  have hl : ∀ k : Fin 272, lidx_main_v15 (ix2 e j) k = ix2 e k := fun k =>
    funext fun a => Fin.ext (by match a with | ⟨0, _⟩ => rfl | ⟨1, _⟩ => rfl)
  have hr : ∀ k : Fin 272, ridx_main_v15 (ix2 e j) k = ix2 k j := fun k =>
    funext fun a => Fin.ext (by match a with | ⟨0, _⟩ => rfl | ⟨1, _⟩ => rfl)
  have hb : idx_main_v16 (idx_main_v17 (ix2 e j)) = ix1 j :=
    funext fun a => Fin.ext (by match a with | ⟨0, _⟩ => rfl)
  rw [val_main_v19_apply, val_main_v18_apply, val_main_v15_apply, val_main_v17_apply, val_main_v16_apply, val_main_call0_v0_apply,
    val_main_call0_cst_apply]
  simp only [hl, hr, hb, Ideal.maximumf_def, Ideal.addf_def, Ideal.ofBits_def]
  rw [← input_row x0 x1 x2 x10 x11 e]
  rfl

/-- The second layer at (e, j): the sum over the 128 hidden columns, plus the bias, clipped below at zero. -/
theorem layer2 (e : Fin 500000) (j : Fin 32) :
    val_main_v24 (F := Ideal) x0 x1 x2 x4 x5 x6 x7 x10 x11 (ix2 e j)
      = EdgeMlp.dense (EdgeMlp.dense (EdgeMlp.xrow (Ns := 100000) (Nd := 50000) (E := 500000) (by decide) (by decide) 100000#32 50000#32 x0 x1 x2 x10 x11 e) x4 x5) x6 x7 j := by
  have hl : ∀ k : Fin 128, lidx_main_v20 (ix2 e j) k = ix2 e k := fun k =>
    funext fun a => Fin.ext (by match a with | ⟨0, _⟩ => rfl | ⟨1, _⟩ => rfl)
  have hr : ∀ k : Fin 128, ridx_main_v20 (ix2 e j) k = ix2 k j := fun k =>
    funext fun a => Fin.ext (by match a with | ⟨0, _⟩ => rfl | ⟨1, _⟩ => rfl)
  have hb : idx_main_v21 (idx_main_v22 (ix2 e j)) = ix1 j :=
    funext fun a => Fin.ext (by match a with | ⟨0, _⟩ => rfl)
  rw [val_main_v24_apply, val_main_v23_apply, val_main_v20_apply, val_main_v22_apply, val_main_v21_apply, val_main_call1_v0_apply,
    val_main_call1_cst_apply]
  simp only [hl, hr, hb, layer1, Ideal.maximumf_def, Ideal.addf_def, Ideal.ofBits_def]
  rfl

/-- The output layer at (e, 0): the sum over the 32 hidden columns plus the bias, through the logistic function, which
    the reference spells as 1 / (1 + exp (-x)). -/
theorem score (e : Fin 500000) :
    val_main_v34 (F := Ideal) x0 x1 x2 x4 x5 x6 x7 x8 x9 x10 x11 (ix2 e (0 : Fin 1))
      = EdgeMlp.mlp (EdgeMlp.xrow (Ns := 100000) (Nd := 50000) (E := 500000) (by decide) (by decide) 100000#32 50000#32 x0 x1 x2 x10 x11 e)
          x4 x5 x6 x7 x8 x9 := by
  have hl : ∀ k : Fin 32, lidx_main_v25 (ix2 e (0 : Fin 1)) k = ix2 e k := fun k =>
    funext fun a => Fin.ext (by match a with | ⟨0, _⟩ => rfl | ⟨1, _⟩ => rfl)
  have hr : ∀ k : Fin 32, ridx_main_v25 (ix2 e (0 : Fin 1)) k = ix2 k (0 : Fin 1) := fun k =>
    funext fun a => Fin.ext (by match a with | ⟨0, _⟩ => rfl | ⟨1, _⟩ => rfl)
  have hb : idx_main_v26 (idx_main_v27 (ix2 e (0 : Fin 1))) = ix1 (0 : Fin 1) :=
    funext fun a => Fin.ext (by match a with | ⟨0, _⟩ => rfl)
  rw [val_main_v34_apply, val_main_v33_apply, val_main_cst_3_apply, val_main_v32_apply, val_main_v31_apply, val_main_cst_apply, val_main_v30_apply,
    val_main_v29_apply, val_main_v28_apply, val_main_v25_apply, val_main_v27_apply, val_main_v26_apply]
  simp only [hl, hr, hb, layer2, Ideal.hostDivf_def, Ideal.hostUnary_exp_def, Ideal.hostNegf_def,
    Ideal.negf_def, Ideal.addf_def, Ideal.ofBits_def, one_word]
  rfl

/-- The reference's whole result for this edge type is the specification's array of scores. -/
theorem result :
    val_main_v34 (F := Ideal) x0 x1 x2 x4 x5 x6 x7 x8 x9 x10 x11
      = EdgeMlp.scores (Ns := 100000) (Nd := 50000) (E := 500000) (by decide) (by decide) 100000#32 50000#32 x0 x1 x2 x10 x11
          x4 x5 x6 x7 x8 x9 := by
  funext i
  obtain ⟨e, z, rfl⟩ : ∃ (e : Fin 500000) (z : Fin 1), i = ix2 e z := ⟨i 0, i 1, eq_ix2 i⟩
  obtain rfl : z = 0 := Subsingleton.elim _ _
  exact score x0 x1 x2 x4 x5 x6 x7 x8 x9 x10 x11 e

end

end Orders

/-! ## The edge type (item, rev-orders, user) -/

namespace Rev

section
variable (x0 : (⟨S100000x128, .f32⟩ : BufTy).Contents (Elt Ideal)) (x1 : (⟨S50000x128, .f32⟩ : BufTy).Contents (Elt Ideal)) (x3 : (⟨S500000x16, .f32⟩ : BufTy).Contents (Elt Ideal)) (x4 : (⟨S272x128, .f32⟩ : BufTy).Contents (Elt Ideal)) (x5 : (⟨S128, .f32⟩ : BufTy).Contents (Elt Ideal)) (x6 : (⟨S128x32, .f32⟩ : BufTy).Contents (Elt Ideal)) (x7 : (⟨S32, .f32⟩ : BufTy).Contents (Elt Ideal)) (x8 : (⟨S32x1, .f32⟩ : BufTy).Contents (Elt Ideal)) (x9 : (⟨S1, .f32⟩ : BufTy).Contents (Elt Ideal)) (x12 : (⟨S500000, .i32⟩ : BufTy).Contents (Elt Ideal)) (x13 : (⟨S500000, .i32⟩ : BufTy).Contents (Elt Ideal))

/-- The source endpoint's gathered row: the index word is wrapped by the table height 50000, laid out as a column and
    read as a row number of the source table. -/
theorem src_row (e : Fin 500000) (k : Fin 128) :
    val_main_v41 (F := Ideal) x1 x12 (ix2 e k) = x1 (ix2 (EdgeMlp.rowOf 50000 (by decide) 50000#32 (x12 (ix1 e))) k) :=
  gather_wrapped_apply (by decide) (by decide) gather_S50000x128_S500000x1_S500000x128_1_0_n_n_0_1_1128_wf bcast_S_S500000 bcast_S500000_S500000x1_0
    50000#32 x1 x12 e k

/-- The destination endpoint's gathered row, likewise with the table height 100000. -/
theorem dst_row (e : Fin 500000) (k : Fin 128) :
    val_main_v48 (F := Ideal) x0 x13 (ix2 e k) = x0 (ix2 (EdgeMlp.rowOf 100000 (by decide) 100000#32 (x13 (ix1 e))) k) :=
  gather_wrapped_apply (by decide) (by decide) gather_S100000x128_S500000x1_S500000x128_1_0_n_n_0_1_1128_wf bcast_S_S500000 bcast_S500000_S500000x1_0
    100000#32 x0 x13 e k

/-- The concatenated input row of edge `e` is the specification's input row. -/
theorem input_row (e : Fin 500000) :
    (fun k : Fin 272 => val_main_v49 (F := Ideal) x0 x1 x3 x12 x13 (ix2 e k))
      = EdgeMlp.xrow (Ns := 50000) (Nd := 100000) (E := 500000) (by decide) (by decide) 50000#32 100000#32 x1 x0 x3 x12 x13 e := by
  funext k
  refine (concat3_apply (E := 500000) (val_main_v41 (F := Ideal) x1 x12) (val_main_v48 (F := Ideal) x0 x13) x3
    concatenates_S500000x128_S500000x128_S500000x16_S500000x272_d1 e k).trans ?_
  unfold EdgeMlp.xrow
  simp only [src_row, dst_row]

/-- The first layer at (e, j): the sum over the 272 input columns, plus the bias, clipped below at zero. -/
theorem layer1 (e : Fin 500000) (j : Fin 128) :
    val_main_v54 (F := Ideal) x0 x1 x3 x4 x5 x12 x13 (ix2 e j)
      = EdgeMlp.dense (EdgeMlp.xrow (Ns := 50000) (Nd := 100000) (E := 500000) (by decide) (by decide) 50000#32 100000#32 x1 x0 x3 x12 x13 e) x4 x5 j := by
  have hl : ∀ k : Fin 272, lidx_main_v50 (ix2 e j) k = ix2 e k := fun k =>
    funext fun a => Fin.ext (by match a with | ⟨0, _⟩ => rfl | ⟨1, _⟩ => rfl)
  have hr : ∀ k : Fin 272, ridx_main_v50 (ix2 e j) k = ix2 k j := fun k =>
    funext fun a => Fin.ext (by match a with | ⟨0, _⟩ => rfl | ⟨1, _⟩ => rfl)
  have hb : idx_main_v51 (idx_main_v52 (ix2 e j)) = ix1 j :=
    funext fun a => Fin.ext (by match a with | ⟨0, _⟩ => rfl)
  rw [val_main_v54_apply, val_main_v53_apply, val_main_v50_apply, val_main_v52_apply, val_main_v51_apply, val_main_call2_v0_apply,
    val_main_call2_cst_apply]
  simp only [hl, hr, hb, Ideal.maximumf_def, Ideal.addf_def, Ideal.ofBits_def]
  rw [← input_row x0 x1 x3 x12 x13 e]
  rfl

/-- The second layer at (e, j): the sum over the 128 hidden columns, plus the bias, clipped below at zero. -/
theorem layer2 (e : Fin 500000) (j : Fin 32) :
    val_main_v59 (F := Ideal) x0 x1 x3 x4 x5 x6 x7 x12 x13 (ix2 e j)
      = EdgeMlp.dense (EdgeMlp.dense (EdgeMlp.xrow (Ns := 50000) (Nd := 100000) (E := 500000) (by decide) (by decide) 50000#32 100000#32 x1 x0 x3 x12 x13 e) x4 x5) x6 x7 j := by
  have hl : ∀ k : Fin 128, lidx_main_v55 (ix2 e j) k = ix2 e k := fun k =>
    funext fun a => Fin.ext (by match a with | ⟨0, _⟩ => rfl | ⟨1, _⟩ => rfl)
  have hr : ∀ k : Fin 128, ridx_main_v55 (ix2 e j) k = ix2 k j := fun k =>
    funext fun a => Fin.ext (by match a with | ⟨0, _⟩ => rfl | ⟨1, _⟩ => rfl)
  have hb : idx_main_v56 (idx_main_v57 (ix2 e j)) = ix1 j :=
    funext fun a => Fin.ext (by match a with | ⟨0, _⟩ => rfl)
  rw [val_main_v59_apply, val_main_v58_apply, val_main_v55_apply, val_main_v57_apply, val_main_v56_apply, val_main_call3_v0_apply,
    val_main_call3_cst_apply]
  simp only [hl, hr, hb, layer1, Ideal.maximumf_def, Ideal.addf_def, Ideal.ofBits_def]
  rfl

/-- The output layer at (e, 0): the sum over the 32 hidden columns plus the bias, through the logistic function, which
    the reference spells as 1 / (1 + exp (-x)). -/
theorem score (e : Fin 500000) :
    val_main_v69 (F := Ideal) x0 x1 x3 x4 x5 x6 x7 x8 x9 x12 x13 (ix2 e (0 : Fin 1))
      = EdgeMlp.mlp (EdgeMlp.xrow (Ns := 50000) (Nd := 100000) (E := 500000) (by decide) (by decide) 50000#32 100000#32 x1 x0 x3 x12 x13 e)
          x4 x5 x6 x7 x8 x9 := by
  have hl : ∀ k : Fin 32, lidx_main_v60 (ix2 e (0 : Fin 1)) k = ix2 e k := fun k =>
    funext fun a => Fin.ext (by match a with | ⟨0, _⟩ => rfl | ⟨1, _⟩ => rfl)
  have hr : ∀ k : Fin 32, ridx_main_v60 (ix2 e (0 : Fin 1)) k = ix2 k (0 : Fin 1) := fun k =>
    funext fun a => Fin.ext (by match a with | ⟨0, _⟩ => rfl | ⟨1, _⟩ => rfl)
  have hb : idx_main_v61 (idx_main_v62 (ix2 e (0 : Fin 1))) = ix1 (0 : Fin 1) :=
    funext fun a => Fin.ext (by match a with | ⟨0, _⟩ => rfl)
  rw [val_main_v69_apply, val_main_v68_apply, val_main_cst_9_apply, val_main_v67_apply, val_main_v66_apply, val_main_cst_8_apply, val_main_v65_apply,
    val_main_v64_apply, val_main_v63_apply, val_main_v60_apply, val_main_v62_apply, val_main_v61_apply]
  simp only [hl, hr, hb, layer2, Ideal.hostDivf_def, Ideal.hostUnary_exp_def, Ideal.hostNegf_def,
    Ideal.negf_def, Ideal.addf_def, Ideal.ofBits_def, one_word]
  rfl

/-- The reference's whole result for this edge type is the specification's array of scores. -/
theorem result :
    val_main_v69 (F := Ideal) x0 x1 x3 x4 x5 x6 x7 x8 x9 x12 x13
      = EdgeMlp.scores (Ns := 50000) (Nd := 100000) (E := 500000) (by decide) (by decide) 50000#32 100000#32 x1 x0 x3 x12 x13
          x4 x5 x6 x7 x8 x9 := by
  funext i
  obtain ⟨e, z, rfl⟩ : ∃ (e : Fin 500000) (z : Fin 1), i = ix2 e z := ⟨i 0, i 1, eq_ix2 i⟩
  obtain rfl : z = 0 := Subsingleton.elim _ _
  exact score x0 x1 x3 x4 x5 x6 x7 x8 x9 x12 x13 e

end

end Rev

/-! ## The reference's run, its two results named by the specification -/

/-- Every weakly fair execution of the reference from the launch memory `m'` terminates with its first result the
    scores of the (user, orders, item) edges, its second the scores of the (item, rev-orders, user) edges, both as
    the specification computes them from the launch contents of the arguments, and with the arguments unchanged. -/
theorem run_scores (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v34) = EdgeMlp.scores (Ns := 100000) (Nd := 50000) (E := 500000) (by decide) (by decide) 100000#32 50000#32
          (m' ((c.tc : Thread nD τ).loc main_arg0)) (m' ((c.tc : Thread nD τ).loc main_arg1)) (m' ((c.tc : Thread nD τ).loc main_arg2)) (m' ((c.tc : Thread nD τ).loc main_arg10)) (m' ((c.tc : Thread nD τ).loc main_arg11))
          (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_v69) = EdgeMlp.scores (Ns := 50000) (Nd := 100000) (E := 500000) (by decide) (by decide) 50000#32 100000#32
          (m' ((c.tc : Thread nD τ).loc main_arg1)) (m' ((c.tc : Thread nD τ).loc main_arg0)) (m' ((c.tc : Thread nD τ).loc main_arg3)) (m' ((c.tc : Thread nD τ).loc main_arg12)) (m' ((c.tc : Thread nD τ).loc main_arg13))
          (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)) :=
  (θ_run defs _ _).mono (fun _ h c =>
      ⟨(h c).1.trans (by rw [val_main_v34_eq, Orders.result]),
        (h c).2.1.trans (by rw [val_main_v69_eq, Rev.result]),
        (h c).2.2⟩)
    (Cert.ReferenceIdeal.Value.run (F := Ideal) m' ρ')

end Cert.ReferenceIdeal.RefValue

end
-- ==== Proof.HostIdx.lean ====
/-
  Host-side index arithmetic shared by both edge types.

  The kernel's wrapper pads each index array with zeros to a whole number of row blocks, wraps negative
  indices by the table height, lays the indices out as a column and gathers table rows.  Read at a row `e`
  below the unpadded length, the padding is invisible: the gathered row is the table row that the unpadded
  index word names (`EdgeMlp.rowOf`).  Likewise a feature matrix padded with extra rows reads, at such a
  row, the unpadded matrix.  Each step is stated over the arrays it combines, as variables.
-/
import proofs.«410395_j88622355186219_3_alg».proof.Proof.Spec
import proofs.«410395_j88622355186219_3_alg».proof.Proof.LibRowGather
import Idealize.ShloMosaic.Lib.KernelVsHost
import Idealize.ShloMosaic.Lib.Pipeline.Value
import Idealize.ShloMosaic.Lib.ValueIdx

noncomputable section

namespace EdgeMlp

open Idealize.ShloMosaic Idealize.ShloMosaic.ValueIdx

variable {α : Type}

/-- A rank-0 array broadcast to any shape reads its one element everywhere. -/
theorem scalar_bcast_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- The wrap of an index word, elementwise: compare with zero, add the height, select. -/
theorem wrapped_at {s : Shape} (P B0 Bn : IVec s 32) (j : s.Idx) (n w : BitVec 32)
    (hP : P j = w) (h0 : B0 j = 0#32) (hn : Bn j = n) :
    select (cmpi .slt P B0) (addi P Bn) P j = wrap n w := by
  show Scalar.select (IntOp.cmpi .slt (P j) (B0 j)) (IntOp.addi (P j) (Bn j)) (P j) = _
  rw [hP, h0, hn]
  rfl

/-- THE GATHERED ROW: a table gathered at an index column whose word at `(e, 0)` is the wrap of `w` reads, at
    `(e, k)`, the table at the row `w` names, column `k`. -/
theorem gather_at {N E' C : Nat} (hN : 0 < N)
    (wf : GatherDims.WF ⟨2, ![N, C]⟩ ⟨2, ![E', 1]⟩ ⟨2, ![E', C]⟩ [1] [0] [] [0] [] 1 ![1, C])
    (tab : (⟨2, ![N, C]⟩ : Shape).Idx → α) (IDX : IVec ⟨2, ![E', 1]⟩ 32) (n w : BitVec 32) (e : Fin E') (k : Fin C)
    (hIDX : IDX (ix2 e (0 : Fin 1)) = wrap n w) :
    Host.gather (RowGather.rowDims N E' C wf) tab IDX (ix2 e k) = tab (ix2 (rowOf N hN n w) k) := by
  refine (RowGather.gather_rows_apply hN wf tab IDX e k).trans (congrArg (fun r : Fin N => tab (ix2 r k)) (Fin.ext ?_))
  show min (IDX (ix2 e (0 : Fin 1))).toInt.toNat (N - 1) = _
  rw [hIDX]
  rfl

end EdgeMlp

end
-- ==== Proof.KHost.lean ====
/-
  What the two regions find in the arrays they stage, read back through the host operations that made them.

  Before the first region the wrapper narrows the two embedding tables and the three weight matrices (the
  identity on extended reals), pads the four index arrays and the two feature matrices to 500736 rows, wraps
  and gathers.  So at a row below 500000 each gathered array holds the table row its edge's index word names,
  each padded feature matrix holds the edge's features, and the weights and biases are the arguments.
  Region 0 writes back only its own result, so region 1 finds the same.
-/
import proofs.«410395_j88622355186219_3_alg».proof.Proof.Gen.KernelIdeal.Frame
import proofs.«410395_j88622355186219_3_alg».proof.Proof.HostIdx
import Idealize.ShloMosaic.Lib.StableHlo.Run
import Idealize.ShloMosaic.Lib.KernelVsHost
import Idealize.ShloMosaic.Lib.ValueIdx

set_option maxRecDepth 16384

noncomputable section
namespace Cert.KernelIdeal.KHost
open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ) (ρ : Dev nD → PrngReg)

/-! ## At region 0's entry -/

set_option maxHeartbeats 2000000 in
/-- The gathered table at a row below the unpadded length: the table row the edge's index word names. -/
theorem v17_row (c : Dev nD) (e : Fin 500736) (he : e.val < 500000) (k : Fin 128) :
    W13 m ρ c (Proc.devRef .tc main_v17) (ix2 e k)
      = m ((c : Thread nD τ).loc main_arg0) (ix2 (EdgeMlp.rowOf 100000 (by decide) 100000#32 (m ((c : Thread nD τ).loc main_arg10) (ix1 ⟨e.val, he⟩))) k) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  show Host.gather (RowGather.rowDims 100000 500736 128 gather_S100000x128_S500736x1_S500736x128_1_0_n_n_0_1_1128_wf) _ _ (ix2 e k) = _
  refine (EdgeMlp.gather_at (by decide) gather_S100000x128_S500736x1_S500736x128_1_0_n_n_0_1_1128_wf _ _ 100000#32 (m ((c : Thread nD τ).loc main_arg10) (ix1 ⟨e.val, he⟩)) e k ?_).trans ?_
  · refine (broadcastInDim_apply _ _ _ _ (ix1 e) (fun a => by match a with | ⟨0, _⟩ => rfl)).trans ?_
    refine EdgeMlp.wrapped_at _ _ _ (ix1 e) _ _ ?_ ?_ ?_
    · exact pad_apply_of_inside _ _ _ _ _ _ _ (ix1 e) (ix1 ⟨e.val, he⟩) (fun a => by
        match a with
        | ⟨0, _⟩ => show e.val = 0 + e.val * (0 + 1); omega)
    · exact EdgeMlp.scalar_bcast_apply _ _ _ _
    · exact EdgeMlp.scalar_bcast_apply _ _ _ _
  · rfl

set_option maxHeartbeats 2000000 in
/-- The gathered table at a row below the unpadded length: the table row the edge's index word names. -/
theorem v24_row (c : Dev nD) (e : Fin 500736) (he : e.val < 500000) (k : Fin 128) :
    W13 m ρ c (Proc.devRef .tc main_v24) (ix2 e k)
      = m ((c : Thread nD τ).loc main_arg1) (ix2 (EdgeMlp.rowOf 50000 (by decide) 50000#32 (m ((c : Thread nD τ).loc main_arg11) (ix1 ⟨e.val, he⟩))) k) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  show Host.gather (RowGather.rowDims 50000 500736 128 gather_S50000x128_S500736x1_S500736x128_1_0_n_n_0_1_1128_wf) _ _ (ix2 e k) = _
  refine (EdgeMlp.gather_at (by decide) gather_S50000x128_S500736x1_S500736x128_1_0_n_n_0_1_1128_wf _ _ 50000#32 (m ((c : Thread nD τ).loc main_arg11) (ix1 ⟨e.val, he⟩)) e k ?_).trans ?_
  · refine (broadcastInDim_apply _ _ _ _ (ix1 e) (fun a => by match a with | ⟨0, _⟩ => rfl)).trans ?_
    refine EdgeMlp.wrapped_at _ _ _ (ix1 e) _ _ ?_ ?_ ?_
    · exact pad_apply_of_inside _ _ _ _ _ _ _ (ix1 e) (ix1 ⟨e.val, he⟩) (fun a => by
        match a with
        | ⟨0, _⟩ => show e.val = 0 + e.val * (0 + 1); omega)
    · exact EdgeMlp.scalar_bcast_apply _ _ _ _
    · exact EdgeMlp.scalar_bcast_apply _ _ _ _
  · rfl

set_option maxHeartbeats 2000000 in
/-- The gathered table at a row below the unpadded length: the table row the edge's index word names. -/
theorem v31_row (c : Dev nD) (e : Fin 500736) (he : e.val < 500000) (k : Fin 128) :
    W13 m ρ c (Proc.devRef .tc main_v31) (ix2 e k)
      = m ((c : Thread nD τ).loc main_arg1) (ix2 (EdgeMlp.rowOf 50000 (by decide) 50000#32 (m ((c : Thread nD τ).loc main_arg12) (ix1 ⟨e.val, he⟩))) k) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  show Host.gather (RowGather.rowDims 50000 500736 128 gather_S50000x128_S500736x1_S500736x128_1_0_n_n_0_1_1128_wf) _ _ (ix2 e k) = _
  refine (EdgeMlp.gather_at (by decide) gather_S50000x128_S500736x1_S500736x128_1_0_n_n_0_1_1128_wf _ _ 50000#32 (m ((c : Thread nD τ).loc main_arg12) (ix1 ⟨e.val, he⟩)) e k ?_).trans ?_
  · refine (broadcastInDim_apply _ _ _ _ (ix1 e) (fun a => by match a with | ⟨0, _⟩ => rfl)).trans ?_
    refine EdgeMlp.wrapped_at _ _ _ (ix1 e) _ _ ?_ ?_ ?_
    · exact pad_apply_of_inside _ _ _ _ _ _ _ (ix1 e) (ix1 ⟨e.val, he⟩) (fun a => by
        match a with
        | ⟨0, _⟩ => show e.val = 0 + e.val * (0 + 1); omega)
    · exact EdgeMlp.scalar_bcast_apply _ _ _ _
    · exact EdgeMlp.scalar_bcast_apply _ _ _ _
  · rfl

set_option maxHeartbeats 2000000 in
/-- The gathered table at a row below the unpadded length: the table row the edge's index word names. -/
theorem v38_row (c : Dev nD) (e : Fin 500736) (he : e.val < 500000) (k : Fin 128) :
    W13 m ρ c (Proc.devRef .tc main_v38) (ix2 e k)
      = m ((c : Thread nD τ).loc main_arg0) (ix2 (EdgeMlp.rowOf 100000 (by decide) 100000#32 (m ((c : Thread nD τ).loc main_arg13) (ix1 ⟨e.val, he⟩))) k) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  show Host.gather (RowGather.rowDims 100000 500736 128 gather_S100000x128_S500736x1_S500736x128_1_0_n_n_0_1_1128_wf) _ _ (ix2 e k) = _
  refine (EdgeMlp.gather_at (by decide) gather_S100000x128_S500736x1_S500736x128_1_0_n_n_0_1_1128_wf _ _ 100000#32 (m ((c : Thread nD τ).loc main_arg13) (ix1 ⟨e.val, he⟩)) e k ?_).trans ?_
  · refine (broadcastInDim_apply _ _ _ _ (ix1 e) (fun a => by match a with | ⟨0, _⟩ => rfl)).trans ?_
    refine EdgeMlp.wrapped_at _ _ _ (ix1 e) _ _ ?_ ?_ ?_
    · exact pad_apply_of_inside _ _ _ _ _ _ _ (ix1 e) (ix1 ⟨e.val, he⟩) (fun a => by
        match a with
        | ⟨0, _⟩ => show e.val = 0 + e.val * (0 + 1); omega)
    · exact EdgeMlp.scalar_bcast_apply _ _ _ _
    · exact EdgeMlp.scalar_bcast_apply _ _ _ _
  · rfl

set_option maxHeartbeats 2000000 in
/-- The feature matrix padded with extra rows, at a row below the unpadded height: the matrix there. -/
theorem v9_row (c : Dev nD) (e : Fin 500736) (he : e.val < 500000) (k : Fin 16) :
    W13 m ρ c (Proc.devRef .tc main_v9) (ix2 e k) = m ((c : Thread nD τ).loc main_arg2) (ix2 ⟨e.val, he⟩ k) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  exact pad_apply_of_inside _ _ _ _ _ _ _ (ix2 e k) (ix2 ⟨e.val, he⟩ k) (fun a => by
    match a with
    | ⟨0, _⟩ => show e.val = 0 + e.val * (0 + 1); omega
    | ⟨1, _⟩ => show k.val = 0 + k.val * (0 + 1); omega)

set_option maxHeartbeats 2000000 in
/-- The feature matrix padded with extra rows, at a row below the unpadded height: the matrix there. -/
theorem v10_row (c : Dev nD) (e : Fin 500736) (he : e.val < 500000) (k : Fin 16) :
    W13 m ρ c (Proc.devRef .tc main_v10) (ix2 e k) = m ((c : Thread nD τ).loc main_arg3) (ix2 ⟨e.val, he⟩ k) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  exact pad_apply_of_inside _ _ _ _ _ _ _ (ix2 e k) (ix2 ⟨e.val, he⟩ k) (fun a => by
    match a with
    | ⟨0, _⟩ => show e.val = 0 + e.val * (0 + 1); omega
    | ⟨1, _⟩ => show k.val = 0 + k.val * (0 + 1); omega)

set_option maxHeartbeats 2000000 in
/-- The first weight matrix, narrowed: the argument, at the ideal values. -/
theorem v2_eq (c : Dev nD) :
    (W13 m ρ c (Proc.devRef .tc main_v2) : EdgeMlp.Mat 272 128) = m ((c : Thread nD τ).loc main_arg4) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  rfl

set_option maxHeartbeats 2000000 in
/-- The second weight matrix, narrowed: the argument. -/
theorem v3_eq (c : Dev nD) :
    (W13 m ρ c (Proc.devRef .tc main_v3) : EdgeMlp.Mat 128 32) = m ((c : Thread nD τ).loc main_arg6) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  rfl

set_option maxHeartbeats 2000000 in
/-- The third weight matrix, narrowed: the argument. -/
theorem v4_eq (c : Dev nD) :
    (W13 m ρ c (Proc.devRef .tc main_v4) : EdgeMlp.Mat 32 1) = m ((c : Thread nD τ).loc main_arg8) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]
  rfl

set_option maxHeartbeats 2000000 in
/-- The first bias is untouched by the host operations. -/
theorem arg5_eq (c : Dev nD) :
    (W13 m ρ c (Proc.devRef .tc main_arg5) : EdgeMlp.Row 128) = m ((c : Thread nD τ).loc main_arg5) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]

set_option maxHeartbeats 2000000 in
/-- The second bias is untouched. -/
theorem arg7_eq (c : Dev nD) :
    (W13 m ρ c (Proc.devRef .tc main_arg7) : EdgeMlp.Row 32) = m ((c : Thread nD τ).loc main_arg7) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]

set_option maxHeartbeats 2000000 in
/-- The third bias is untouched. -/
theorem arg9_eq (c : Dev nD) :
    (W13 m ρ c (Proc.devRef .tc main_arg9) : EdgeMlp.Row 1) = m ((c : Thread nD τ).loc main_arg9) := by
  dsimp only [W13, W12, W11, W10, W9, W8, W7, W6, W5, W4, W3, W2, W1, W0]
  simp only [hostOps0, hostOps0_1, hostOps0_2, hostOps0_3, hostOps0_4, hostOps0_5, hostOps0_6, hostOps0_7, hostOps0_8, hostOps0_9, hostOps0_10, hostOps0_11, hostOps0_12]
  after_results
  try simp only [TRef.ofBuf, TRef.toBuf, cast_eq]

/-! ## At region 1's entry -/

/-- Region 0 writes back only its own result: an array it does not stage is, at region 1's entry, as it was at
    region 0's. -/
theorem v31_kept (c : Dev nD) : W14 m ρ c (Proc.devRef .tc main_v31) = W13 m ρ c (Proc.devRef .tc main_v31) :=
  W14_of_ne m ρ c main_v31 (by decide)

/-- Region 0 writes back only its own result: an array it does not stage is, at region 1's entry, as it was at
    region 0's. -/
theorem v38_kept (c : Dev nD) : W14 m ρ c (Proc.devRef .tc main_v38) = W13 m ρ c (Proc.devRef .tc main_v38) :=
  W14_of_ne m ρ c main_v38 (by decide)

/-- Region 0 writes back only its own result: an array it does not stage is, at region 1's entry, as it was at
    region 0's. -/
theorem v10_kept (c : Dev nD) : W14 m ρ c (Proc.devRef .tc main_v10) = W13 m ρ c (Proc.devRef .tc main_v10) :=
  W14_of_ne m ρ c main_v10 (by decide)

/-- An array region 0 only reads is, at region 1's entry, as it was at region 0's. -/
theorem v2_kept (c : Dev nD) : W14 m ρ c (Proc.devRef .tc main_v2) = W13 m ρ c (Proc.devRef .tc main_v2) :=
  (W14_arr m ρ c 3).trans (((dat0 (V13 m ρ) c).arrAt_in 3 rfl _).trans (A_eq0 (V13 m ρ) c 3))

/-- An array region 0 only reads is, at region 1's entry, as it was at region 0's. -/
theorem arg5_kept (c : Dev nD) : W14 m ρ c (Proc.devRef .tc main_arg5) = W13 m ρ c (Proc.devRef .tc main_arg5) :=
  (W14_arr m ρ c 4).trans (((dat0 (V13 m ρ) c).arrAt_in 4 rfl _).trans (A_eq0 (V13 m ρ) c 4))

/-- An array region 0 only reads is, at region 1's entry, as it was at region 0's. -/
theorem v3_kept (c : Dev nD) : W14 m ρ c (Proc.devRef .tc main_v3) = W13 m ρ c (Proc.devRef .tc main_v3) :=
  (W14_arr m ρ c 5).trans (((dat0 (V13 m ρ) c).arrAt_in 5 rfl _).trans (A_eq0 (V13 m ρ) c 5))

/-- An array region 0 only reads is, at region 1's entry, as it was at region 0's. -/
theorem arg7_kept (c : Dev nD) : W14 m ρ c (Proc.devRef .tc main_arg7) = W13 m ρ c (Proc.devRef .tc main_arg7) :=
  (W14_arr m ρ c 6).trans (((dat0 (V13 m ρ) c).arrAt_in 6 rfl _).trans (A_eq0 (V13 m ρ) c 6))

/-- An array region 0 only reads is, at region 1's entry, as it was at region 0's. -/
theorem v4_kept (c : Dev nD) : W14 m ρ c (Proc.devRef .tc main_v4) = W13 m ρ c (Proc.devRef .tc main_v4) :=
  (W14_arr m ρ c 7).trans (((dat0 (V13 m ρ) c).arrAt_in 7 rfl _).trans (A_eq0 (V13 m ρ) c 7))

/-- An array region 0 only reads is, at region 1's entry, as it was at region 0's. -/
theorem arg9_kept (c : Dev nD) : W14 m ρ c (Proc.devRef .tc main_arg9) = W13 m ρ c (Proc.devRef .tc main_arg9) :=
  (W14_arr m ρ c 8).trans (((dat0 (V13 m ρ) c).arrAt_in 8 rfl _).trans (A_eq0 (V13 m ρ) c 8))

end Cert.KernelIdeal.KHost
end
-- ==== Proof.KBody.lean ====
/-
  The body of the edge-scoring kernel, read at one edge.

  One grid step handles 1024 edges. The body lays the gathered source rows, the gathered destination rows and the
  edges' 16 features side by side in a 1024×272 scratch, reads the scratch back whole, and applies three dense layers:
  product with a weight matrix into a zero accumulator, a bias added to every row, a clamp at zero after the first two,
  the logistic function after the third. Over the extended reals the format changes between layers are the identity, so
  row `r` of the output is exactly the three-layer perceptron of the 272-long concatenation of the three blocks' rows `r`.

  The file reads each piece at an index: a product as the sum over its inner axis, a bias broadcast as the bias, the
  scratch after its three band stores as the concatenation, and then the output buffer after the body as the arithmetic
  of those. The program has the body twice, once per edge type; the two texts differ in names only.
-/
import proofs.«410395_j88622355186219_3_alg».proof.Proof.Gen.KernelIdeal.Frame
import proofs.«410395_j88622355186219_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KBody

open Idealize.ShloMosaic Idealize.ShloMosaic.ValueIdx
open Cert.KernelIdeal Cert.KernelIdeal.Gen
open Idealize.ShloMosaic.Tactic

/-! ### The first product: a 1024×272 block times the 272×128 weights -/

/-- Row axis of the left operand: the output's row. -/
theorem lhs1_0 (i : S1024x128.Idx) (q : dot_S1024x272_S272x128_S1024x128_1_0_0_1_n_n.contr.Idx) :
    (dot_S1024x272_S272x128_S1024x128_1_0_0_1_n_n.lhsIdx i q 0).val = (i 0).val := by
  unfold DotDims.lhsIdx
  rw [dif_neg (show ¬(0 : Fin S1024x272.rank) ∈ dot_S1024x272_S272x128_S1024x128_1_0_0_1_n_n.lhsBatch by decide), dif_pos (show (0 : Fin S1024x272.rank) ∈ dot_S1024x272_S272x128_S1024x128_1_0_0_1_n_n.lhsNonContracting by decide)]
  rfl
/-- Column axis of the left operand: the contraction position. -/
theorem lhs1_1 (i : S1024x128.Idx) (q : dot_S1024x272_S272x128_S1024x128_1_0_0_1_n_n.contr.Idx) :
    (dot_S1024x272_S272x128_S1024x128_1_0_0_1_n_n.lhsIdx i q 1).val = (q ⟨0, by decide⟩).val :=
  dot_S1024x272_S272x128_S1024x128_1_0_0_1_n_n.lhsIdx_val_of_single rfl i q
/-- Row axis of the right operand: the contraction position. -/
theorem rhs1_0 (i : S1024x128.Idx) (q : dot_S1024x272_S272x128_S1024x128_1_0_0_1_n_n.contr.Idx) :
    (dot_S1024x272_S272x128_S1024x128_1_0_0_1_n_n.rhsIdx i q 0).val = (q ⟨0, by decide⟩).val :=
  dot_S1024x272_S272x128_S1024x128_1_0_0_1_n_n.rhsIdx_val_of_single rfl i q
/-- Column axis of the right operand: the output's column. -/
theorem rhs1_1 (i : S1024x128.Idx) (q : dot_S1024x272_S272x128_S1024x128_1_0_0_1_n_n.contr.Idx) :
    (dot_S1024x272_S272x128_S1024x128_1_0_0_1_n_n.rhsIdx i q 1).val = (i 1).val := by
  unfold DotDims.rhsIdx
  rw [dif_neg (show ¬(1 : Fin S272x128.rank) ∈ dot_S1024x272_S272x128_S1024x128_1_0_0_1_n_n.rhsBatch by decide), dif_pos (show (1 : Fin S272x128.rank) ∈ dot_S1024x272_S272x128_S1024x128_1_0_0_1_n_n.rhsNonContracting by decide)]
  rfl

/-- The product into a zero accumulator, at row `r` and column `j`: the sum over the 272 inner positions. -/
theorem mm1 {φ₁ φ₂ : FTy} (l : FVec Ideal S1024x272 φ₁) (w : FVec Ideal S272x128 φ₂) (r : Fin 1024) (j : Fin 128) :
    matmul dot_S1024x272_S272x128_S1024x128_1_0_0_1_n_n none l w (constant (F := Ideal) S1024x128 .f32 0x00000000#32) (ix2 r j)
      = ∑ k : Fin 272, l (ix2 r k) * w (ix2 k j) := by
  simp only [matmul]
  rw [Ideal.matmul_constant_zero_apply, ← Equiv.sum_comp (contrEquiv1 dot_S1024x272_S272x128_S1024x128_1_0_0_1_n_n 272 rfl rfl).symm]
  refine Finset.sum_congr rfl fun k _ => ?_
  have hk := contrEquiv1_symm_val dot_S1024x272_S272x128_S1024x128_1_0_0_1_n_n 272 rfl rfl k
  have el : dot_S1024x272_S272x128_S1024x128_1_0_0_1_n_n.lhsIdx (ix2 r j) ((contrEquiv1 dot_S1024x272_S272x128_S1024x128_1_0_0_1_n_n 272 rfl rfl).symm k) = ix2 r k := funext fun a => Fin.ext (by
    match a with
    | ⟨0, _⟩ => exact lhs1_0 _ _
    | ⟨1, _⟩ => exact (lhs1_1 _ _).trans hk)
  have er : dot_S1024x272_S272x128_S1024x128_1_0_0_1_n_n.rhsIdx (ix2 r j) ((contrEquiv1 dot_S1024x272_S272x128_S1024x128_1_0_0_1_n_n 272 rfl rfl).symm k) = ix2 k j := funext fun a => Fin.ext (by
    match a with
    | ⟨0, _⟩ => exact (rhs1_0 _ _).trans hk
    | ⟨1, _⟩ => exact rhs1_1 _ _)
  rw [el, er]

/-! ### The second product: 1024×128 times the 128×32 weights -/

/-- Row axis of the left operand: the output's row. -/
theorem lhs2_0 (i : S1024x32.Idx) (q : dot_S1024x128_S128x32_S1024x32_1_0_0_1_n_n.contr.Idx) :
    (dot_S1024x128_S128x32_S1024x32_1_0_0_1_n_n.lhsIdx i q 0).val = (i 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
/-- Column axis of the left operand: the contraction position. -/
theorem lhs2_1 (i : S1024x32.Idx) (q : dot_S1024x128_S128x32_S1024x32_1_0_0_1_n_n.contr.Idx) :
    (dot_S1024x128_S128x32_S1024x32_1_0_0_1_n_n.lhsIdx i q 1).val = (q ⟨0, by decide⟩).val :=
  dot_S1024x128_S128x32_S1024x32_1_0_0_1_n_n.lhsIdx_val_of_single rfl i q
/-- Row axis of the right operand: the contraction position. -/
theorem rhs2_0 (i : S1024x32.Idx) (q : dot_S1024x128_S128x32_S1024x32_1_0_0_1_n_n.contr.Idx) :
    (dot_S1024x128_S128x32_S1024x32_1_0_0_1_n_n.rhsIdx i q 0).val = (q ⟨0, by decide⟩).val :=
  dot_S1024x128_S128x32_S1024x32_1_0_0_1_n_n.rhsIdx_val_of_single rfl i q
/-- Column axis of the right operand: the output's column. -/
theorem rhs2_1 (i : S1024x32.Idx) (q : dot_S1024x128_S128x32_S1024x32_1_0_0_1_n_n.contr.Idx) :
    (dot_S1024x128_S128x32_S1024x32_1_0_0_1_n_n.rhsIdx i q 1).val = (i 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl

/-- The product into a zero accumulator, at row `r` and column `j`: the sum over the 128 inner positions. -/
theorem mm2 {φ₁ φ₂ : FTy} (l : FVec Ideal S1024x128 φ₁) (w : FVec Ideal S128x32 φ₂) (r : Fin 1024) (j : Fin 32) :
    matmul dot_S1024x128_S128x32_S1024x32_1_0_0_1_n_n none l w (constant (F := Ideal) S1024x32 .f32 0x00000000#32) (ix2 r j)
      = ∑ k : Fin 128, l (ix2 r k) * w (ix2 k j) := by
  simp only [matmul]
  rw [Ideal.matmul_constant_zero_apply, ← Equiv.sum_comp (contrEquiv1 dot_S1024x128_S128x32_S1024x32_1_0_0_1_n_n 128 rfl rfl).symm]
  refine Finset.sum_congr rfl fun k _ => ?_
  have hk := contrEquiv1_symm_val dot_S1024x128_S128x32_S1024x32_1_0_0_1_n_n 128 rfl rfl k
  have el : dot_S1024x128_S128x32_S1024x32_1_0_0_1_n_n.lhsIdx (ix2 r j) ((contrEquiv1 dot_S1024x128_S128x32_S1024x32_1_0_0_1_n_n 128 rfl rfl).symm k) = ix2 r k := funext fun a => Fin.ext (by
    match a with
    | ⟨0, _⟩ => exact lhs2_0 _ _
    | ⟨1, _⟩ => exact (lhs2_1 _ _).trans hk)
  have er : dot_S1024x128_S128x32_S1024x32_1_0_0_1_n_n.rhsIdx (ix2 r j) ((contrEquiv1 dot_S1024x128_S128x32_S1024x32_1_0_0_1_n_n 128 rfl rfl).symm k) = ix2 k j := funext fun a => Fin.ext (by
    match a with
    | ⟨0, _⟩ => exact (rhs2_0 _ _).trans hk
    | ⟨1, _⟩ => exact rhs2_1 _ _)
  rw [el, er]

/-! ### The third product: 1024×32 times the 32×1 weights -/

/-- Row axis of the left operand: the output's row. -/
theorem lhs3_0 (i : S1024x1.Idx) (q : dot_S1024x32_S32x1_S1024x1_1_0_0_1_n_n.contr.Idx) :
    (dot_S1024x32_S32x1_S1024x1_1_0_0_1_n_n.lhsIdx i q 0).val = (i 0).val := by
  unfold DotDims.lhsIdx
  rw [dif_neg (show ¬(0 : Fin S1024x32.rank) ∈ dot_S1024x32_S32x1_S1024x1_1_0_0_1_n_n.lhsBatch by decide), dif_pos (show (0 : Fin S1024x32.rank) ∈ dot_S1024x32_S32x1_S1024x1_1_0_0_1_n_n.lhsNonContracting by decide)]
  rfl
/-- Column axis of the left operand: the contraction position. -/
theorem lhs3_1 (i : S1024x1.Idx) (q : dot_S1024x32_S32x1_S1024x1_1_0_0_1_n_n.contr.Idx) :
    (dot_S1024x32_S32x1_S1024x1_1_0_0_1_n_n.lhsIdx i q 1).val = (q ⟨0, by decide⟩).val :=
  dot_S1024x32_S32x1_S1024x1_1_0_0_1_n_n.lhsIdx_val_of_single rfl i q
/-- Row axis of the right operand: the contraction position. -/
theorem rhs3_0 (i : S1024x1.Idx) (q : dot_S1024x32_S32x1_S1024x1_1_0_0_1_n_n.contr.Idx) :
    (dot_S1024x32_S32x1_S1024x1_1_0_0_1_n_n.rhsIdx i q 0).val = (q ⟨0, by decide⟩).val :=
  dot_S1024x32_S32x1_S1024x1_1_0_0_1_n_n.rhsIdx_val_of_single rfl i q
/-- Column axis of the right operand: the output's column. -/
theorem rhs3_1 (i : S1024x1.Idx) (q : dot_S1024x32_S32x1_S1024x1_1_0_0_1_n_n.contr.Idx) :
    (dot_S1024x32_S32x1_S1024x1_1_0_0_1_n_n.rhsIdx i q 1).val = (i 1).val := by
  unfold DotDims.rhsIdx
  rw [dif_neg (show ¬(1 : Fin S32x1.rank) ∈ dot_S1024x32_S32x1_S1024x1_1_0_0_1_n_n.rhsBatch by decide), dif_pos (show (1 : Fin S32x1.rank) ∈ dot_S1024x32_S32x1_S1024x1_1_0_0_1_n_n.rhsNonContracting by decide)]
  rfl

/-- The product into a zero accumulator, at row `r` and column `j`: the sum over the 32 inner positions. -/
theorem mm3 {φ₁ φ₂ : FTy} (l : FVec Ideal S1024x32 φ₁) (w : FVec Ideal S32x1 φ₂) (r : Fin 1024) (j : Fin 1) :
    matmul dot_S1024x32_S32x1_S1024x1_1_0_0_1_n_n none l w (constant (F := Ideal) S1024x1 .f32 0x00000000#32) (ix2 r j)
      = ∑ k : Fin 32, l (ix2 r k) * w (ix2 k j) := by
  simp only [matmul]
  rw [Ideal.matmul_constant_zero_apply, ← Equiv.sum_comp (contrEquiv1 dot_S1024x32_S32x1_S1024x1_1_0_0_1_n_n 32 rfl rfl).symm]
  refine Finset.sum_congr rfl fun k _ => ?_
  have hk := contrEquiv1_symm_val dot_S1024x32_S32x1_S1024x1_1_0_0_1_n_n 32 rfl rfl k
  have el : dot_S1024x32_S32x1_S1024x1_1_0_0_1_n_n.lhsIdx (ix2 r j) ((contrEquiv1 dot_S1024x32_S32x1_S1024x1_1_0_0_1_n_n 32 rfl rfl).symm k) = ix2 r k := funext fun a => Fin.ext (by
    match a with
    | ⟨0, _⟩ => exact lhs3_0 _ _
    | ⟨1, _⟩ => exact (lhs3_1 _ _).trans hk)
  have er : dot_S1024x32_S32x1_S1024x1_1_0_0_1_n_n.rhsIdx (ix2 r j) ((contrEquiv1 dot_S1024x32_S32x1_S1024x1_1_0_0_1_n_n 32 rfl rfl).symm k) = ix2 k j := funext fun a => Fin.ext (by
    match a with
    | ⟨0, _⟩ => exact (rhs3_0 _ _).trans hk
    | ⟨1, _⟩ => exact rhs3_1 _ _)
  rw [el, er]

/-! ### A bias laid as a row and repeated over the rows -/

/-- A length-`b` vector cast to one row and broadcast over `a` rows reads, at `(p, c)`, the vector at `c`. -/
theorem rowBias_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 (0 : Fin 1) c)

/-! ### The three column bands of the 1024×272 scratch -/

theorem hz2 : (![0, 0] : Fin 2 → Nat) = fun _ => 0 := funext fun a => by fin_cases a <;> rfl
theorem hz1 : (![0] : Fin 1 → Nat) = fun _ => 0 := funext fun a => by fin_cases a; rfl

/-- Row `r`, column `j` of the band at columns 0–127 is row `r`, column `j` of the scratch. -/
theorem emb_band0 (r : Fin 1024) (j : Fin 128) (k : Fin 272) (hk : k.val = j.val) :
    (Rect.unit (s := S1024x272) ![0, 0] S1024x128.size inb_S1024x272_S1024x128_0_0).emb (ix2 r j) = ix2 r k := by
  funext a; refine Fin.ext ?_
  match a with
  | ⟨0, _⟩ => show 0 + 1 * r.val = r.val; omega
  | ⟨1, _⟩ => show 0 + 1 * j.val = k.val; omega
/-- Row `r`, column `j` of the band at columns 128–255 is row `r`, column `128 + j` of the scratch. -/
theorem emb_band1 (r : Fin 1024) (j : Fin 128) (k : Fin 272) (hk : k.val = 128 + j.val) :
    (Rect.unit (s := S1024x272) ![0, 128] S1024x128.size inb_S1024x272_S1024x128_0_128).emb (ix2 r j) = ix2 r k := by
  funext a; refine Fin.ext ?_
  match a with
  | ⟨0, _⟩ => show 0 + 1 * r.val = r.val; omega
  | ⟨1, _⟩ => show 128 + 1 * j.val = k.val; omega
/-- Row `r`, column `j` of the band at columns 256–271 is row `r`, column `256 + j` of the scratch. -/
theorem emb_band2 (r : Fin 1024) (j : Fin 16) (k : Fin 272) (hk : k.val = 256 + j.val) :
    (Rect.unit (s := S1024x272) ![0, 256] S1024x16.size inb_S1024x272_S1024x16_0_256).emb (ix2 r j) = ix2 r k := by
  funext a; refine Fin.ext ?_
  match a with
  | ⟨0, _⟩ => show 0 + 1 * r.val = r.val; omega
  | ⟨1, _⟩ => show 256 + 1 * j.val = k.val; omega

/-- A column below 128 is outside the band at columns 128–255. -/
theorem not_mem_band1 (r : Fin 1024) (k : Fin 272) (h : k.val < 128) :
    ix2 r k ∉ (Rect.unit (s := S1024x272) ![0, 128] S1024x128.size inb_S1024x272_S1024x128_0_128).set := fun hm => by
  have h1 : 128 ≤ k.val := (Rect.mem_set_unit.mp hm 1).1
  omega
/-- A column below 256 is outside the band at columns 256–271. -/
theorem not_mem_band2 (r : Fin 1024) (k : Fin 272) (h : k.val < 256) :
    ix2 r k ∉ (Rect.unit (s := S1024x272) ![0, 256] S1024x16.size inb_S1024x272_S1024x16_0_256).set := fun hm => by
  have h1 : 256 ≤ k.val := (Rect.mem_set_unit.mp hm 1).1
  omega

/-- A load of the whole scratch after stores `L` reads what the stores leave, index by index. -/
theorem readCov_whole (v : View sig .tc .vmem S1024x272 .bf16) (L : List (View.Piece (Elt Ideal) S1024x272 .bf16)) :
    v.readCov L (Rect.unit (s := S1024x272) ![0, 0] S1024x272.size inb_S1024x272_S1024x272_0_0).toLoadRect = View.canon L :=
  (View.readCov_eq_canon' v L _).trans (View.ld_unit_zero hz2 inb_S1024x272_S1024x272_0_0 (View.canon L))

/-- The band at columns 0–127, at columns 128–255, at columns 256–271. -/
abbrev band0 : Rect S1024x272 := Rect.unit (s := S1024x272) ![0, 0] S1024x128.size inb_S1024x272_S1024x128_0_0
abbrev band1 : Rect S1024x272 := Rect.unit (s := S1024x272) ![0, 128] S1024x128.size inb_S1024x272_S1024x128_0_128
abbrev band2 : Rect S1024x272 := Rect.unit (s := S1024x272) ![0, 256] S1024x16.size inb_S1024x272_S1024x16_0_256

/-! ### The body's arithmetic at one row (region 0) -/

/-- The second bias, laid as a row over the 1024 rows. -/
theorem pay6_0_apply (b2 : Vec Ideal S32 .f32) (r : Fin 1024) (j : Fin 32) :
    k0_pay6 (F := Ideal) b2 (ix2 r j) = b2 (ix1 j) := by
  unfold k0_pay6
  exact rowBias_apply b2 _ _ r j

/-- The second product's row `r`: the first layer's row (product, bias, clamp at zero) times the second weights. -/
theorem pay5_0_apply (xc : Vec Ideal S1024x272 .bf16) (W1 : Vec Ideal S272x128 .bf16) (b1 : Vec Ideal S128 .f32)
    (W2 : Vec Ideal S128x32 .bf16) (r : Fin 1024) (j : Fin 32) :
    k0_pay5 (F := Ideal) xc W1 b1 W2 (ix2 r j)
      = ∑ k : Fin 128, EdgeMlp.dense (fun c => xc (ix2 r c)) W1 b1 k * W2 (ix2 k j) := by
  unfold k0_pay5
  refine (mm2 _ _ r j).trans ?_
  refine Finset.sum_congr rfl fun k _ => ?_
  refine congrArg₂ (· * ·) ?_ (congrFun (shapeCast_self W2 _) (ix2 k j))
  unfold EdgeMlp.dense
  refine (truncf_apply (φ := .f32) (ψ := .bf16) _ bitsLt_bf16_f32 (ix2 r k)).trans ?_
  refine (maximumf_apply (φ := .f32) _ _ (ix2 r k)).trans ?_
  refine congrArg₂ max ?_ rfl
  refine (addf_apply (φ := .f32) _ _ (ix2 r k)).trans ?_
  refine congrArg₂ (· + ·) ?_ (rowBias_apply b1 _ _ r k)
  refine (mm1 xc _ r k).trans ?_
  exact Finset.sum_congr rfl fun c _ => congrArg (xc (ix2 r c) * ·) (congrFun (shapeCast_self W1 _) (ix2 c k))

/-- The score of row `r` from the second product and the second bias: clamp at zero, third product, third bias,
    logistic. -/
theorem pay1_0_apply (p q : FVec Ideal S1024x32 .f32) (W3 : Vec Ideal S32x1 .bf16) (b3 : Vec Ideal S1 .f32) (r : Fin 1024) :
    k0_pay1 (F := Ideal) p q W3 b3 (ix2 r (0 : Fin 1))
      = Ideal.logistic ((∑ k : Fin 32, max (p (ix2 r k) + q (ix2 r k)) EdgeMlp.z32 * W3 (ix2 k (0 : Fin 1)))
          + b3 (ix1 (0 : Fin 1))) := by
  unfold k0_pay1
  refine congrArg Ideal.logistic ?_
  refine (addf_apply (φ := .f32) _ _ (ix2 r (0 : Fin 1))).trans ?_
  refine congrArg₂ (· + ·) ?_ (rowBias_apply b3 _ _ r (0 : Fin 1))
  refine (mm3 _ _ r (0 : Fin 1)).trans ?_
  refine Finset.sum_congr rfl fun k _ => ?_
  exact congrArg₂ (· * ·) rfl (congrFun (shapeCast_self W3 _) (ix2 k (0 : Fin 1)))

/-- The whole arithmetic of the body at row `r` of a 1024×272 block `xc`: the perceptron of that row. -/
theorem body_0_apply (xc : Vec Ideal S1024x272 .bf16) (W1 : Vec Ideal S272x128 .bf16) (b1 : Vec Ideal S128 .f32)
    (W2 : Vec Ideal S128x32 .bf16) (b2 : Vec Ideal S32 .f32) (W3 : Vec Ideal S32x1 .bf16) (b3 : Vec Ideal S1 .f32) (r : Fin 1024) :
    k0_pay1 (F := Ideal) (k0_pay5 xc W1 b1 W2) (k0_pay6 b2) W3 b3 (ix2 r (0 : Fin 1))
      = EdgeMlp.mlp (fun c => xc (ix2 r c)) W1 b1 W2 b2 W3 b3 := by
  refine (pay1_0_apply _ _ W3 b3 r).trans ?_
  unfold EdgeMlp.mlp
  refine congrArg Ideal.logistic (congrArg (· + b3 (ix1 (0 : Fin 1))) (Finset.sum_congr rfl fun k _ => ?_))
  rw [pay5_0_apply, pay6_0_apply]
  rfl

/-! ### The scratch read back (region 0)

The body stores the two gathered 1024×128 blocks and the narrowed 1024×16 feature block into columns 0–127,
128–255 and 256–271 of a 1024×272 scratch and then loads the scratch whole. Read at row `r` and column `k` the
load is whichever block holds column `k`: the three rows of the blocks laid side by side. -/

/-- The three stores, each a band and what is stored in it. -/
abbrev piece0_0 (x0 : Vec Ideal S1024x128 .bf16) : View.Piece (Elt Ideal) S1024x272 .bf16 := ⟨band0, k0_pay2 (F := Ideal) x0⟩
abbrev piece0_1 (x1 : Vec Ideal S1024x128 .bf16) : View.Piece (Elt Ideal) S1024x272 .bf16 := ⟨band1, k0_pay3 (F := Ideal) x1⟩
abbrev piece0_2 (x2 : Vec Ideal S1024x16 .f32) : View.Piece (Elt Ideal) S1024x272 .bf16 := ⟨band2, k0_pay4 (F := Ideal) x2⟩

/-- The three column bands as the stores leave them, the last store first. -/
def bands0 (x0 x1 : Vec Ideal S1024x128 .bf16) (x2 : Vec Ideal S1024x16 .f32) : List (View.Piece (Elt Ideal) S1024x272 .bf16) :=
  [piece0_2 x2, piece0_1 x1, piece0_0 x0]

/-- What is stored in the first band is the first block itself (two casts to its own shape). -/
theorem pay2_0_eq (x0 : Vec Ideal S1024x128 .bf16) : k0_pay2 (F := Ideal) x0 = x0 := by
  unfold k0_pay2
  exact (shapeCast_self _ _).trans (shapeCast_self x0 _)
/-- What is stored in the second band is the second block itself. -/
theorem pay3_0_eq (x1 : Vec Ideal S1024x128 .bf16) : k0_pay3 (F := Ideal) x1 = x1 := by
  unfold k0_pay3
  exact (shapeCast_self _ _).trans (shapeCast_self x1 _)
/-- What is stored in the third band is the feature block itself: over the extended reals the narrowing is the identity. -/
theorem pay4_0_eq (x2 : Vec Ideal S1024x16 .f32) : k0_pay4 (F := Ideal) x2 = x2 := by
  unfold k0_pay4
  refine (shapeCast_self _ _).trans ?_
  exact congrArg (fun v : FVec Ideal S1024x16 .f32 => (truncf .bf16 v bitsLt_bf16_f32 : FVec Ideal S1024x16 .bf16)) (shapeCast_self x2 _)

/-- A column below 128 reads the first block. -/
theorem scratch0_lo (x0 x1 : Vec Ideal S1024x128 .bf16) (x2 : Vec Ideal S1024x16 .f32) (r : Fin 1024) (k : Fin 272) (h : k.val < 128) :
    View.canon (bands0 x0 x1 x2) (ix2 r k) = x0 (ix2 r ⟨k.val, h⟩) := by
  unfold bands0
  refine (View.canon_cons_of_not_mem (piece0_2 x2) [piece0_1 x1, piece0_0 x0] (not_mem_band2 r k (by omega))).trans ?_
  refine (View.canon_cons_of_not_mem (piece0_1 x1) [piece0_0 x0] (not_mem_band1 r k h)).trans ?_
  refine (congrArg (View.canon [piece0_0 x0]) (emb_band0 r ⟨k.val, h⟩ k rfl).symm).trans ?_
  refine (View.canon_cons_emb (Val := Elt Ideal) (e := .bf16) band0 (k0_pay2 (F := Ideal) x0) [] (ix2 r ⟨k.val, h⟩)).trans ?_
  exact congrFun (pay2_0_eq x0) _
/-- A column from 128 to 255 reads the second block. -/
theorem scratch0_mid (x0 x1 : Vec Ideal S1024x128 .bf16) (x2 : Vec Ideal S1024x16 .f32) (r : Fin 1024) (k : Fin 272)
    (h : ¬ k.val < 128) (h2 : k.val < 256) :
    View.canon (bands0 x0 x1 x2) (ix2 r k) = x1 (ix2 r ⟨k.val - 128, by omega⟩) := by
  unfold bands0
  refine (View.canon_cons_of_not_mem (piece0_2 x2) [piece0_1 x1, piece0_0 x0] (not_mem_band2 r k h2)).trans ?_
  refine (congrArg (View.canon [piece0_1 x1, piece0_0 x0])
    (emb_band1 r ⟨k.val - 128, by omega⟩ k (by show k.val = 128 + (k.val - 128); omega)).symm).trans ?_
  refine (View.canon_cons_emb band1 (k0_pay3 (F := Ideal) x1) [piece0_0 x0] (ix2 r ⟨k.val - 128, by omega⟩)).trans ?_
  exact congrFun (pay3_0_eq x1) _
/-- A column from 256 on reads the feature block. -/
theorem scratch0_hi (x0 x1 : Vec Ideal S1024x128 .bf16) (x2 : Vec Ideal S1024x16 .f32) (r : Fin 1024) (k : Fin 272)
    (h2 : ¬ k.val < 256) :
    View.canon (bands0 x0 x1 x2) (ix2 r k) = x2 (ix2 r ⟨k.val - 256, by have := k.isLt; omega⟩) := by
  unfold bands0
  refine (congrArg (View.canon [piece0_2 x2, piece0_1 x1, piece0_0 x0])
    (emb_band2 r ⟨k.val - 256, by have := k.isLt; omega⟩ k (by show k.val = 256 + (k.val - 256); omega)).symm).trans ?_
  refine (View.canon_cons_emb band2 (k0_pay4 (F := Ideal) x2) [piece0_1 x1, piece0_0 x0]
    (ix2 r ⟨k.val - 256, by have := k.isLt; omega⟩)).trans ?_
  exact congrFun (pay4_0_eq x2) _

/-- The scratch at row `r`, column `k`, after the three stores: the three blocks' rows `r` side by side, at `k`. -/
theorem scratch0_apply (x0 x1 : Vec Ideal S1024x128 .bf16) (x2 : Vec Ideal S1024x16 .f32) (r : Fin 1024) (k : Fin 272) :
    View.canon (bands0 x0 x1 x2) (ix2 r k)
      = EdgeMlp.cat3 (fun c => x0 (ix2 r c)) (fun c => x1 (ix2 r c)) (fun c => x2 (ix2 r c)) k := by
  unfold EdgeMlp.cat3
  by_cases h : k.val < 128
  · rw [dif_pos h]; exact scratch0_lo x0 x1 x2 r k h
  · rw [dif_neg h]
    by_cases h2 : k.val < 256
    · rw [dif_pos h2]; exact scratch0_mid x0 x1 x2 r k h h2
    · rw [dif_neg h2]; exact scratch0_hi x0 x1 x2 r k h2

/-! ### The body's output (region 0) -/

/-- What the body leaves in the output's buffer: its arithmetic on the scratch read back and the six loaded
    parameter blocks. -/
theorem out0_eq (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x16 .f32) (harg3 : arg3.IsWhole) (arg4 : Memref sig .tc .vmem S272x128 .bf16) (harg4 : arg4.IsWhole) (arg5 : Memref sig .tc .vmem S128 .f32) (harg5 : arg5.IsWhole) (arg6 : Memref sig .tc .vmem S128x32 .bf16) (harg6 : arg6.IsWhole) (arg7 : Memref sig .tc .vmem S32 .f32) (harg7 : arg7.IsWhole) (arg8 : Memref sig .tc .vmem S32x1 .bf16) (harg8 : arg8.IsWhole) (arg9 : Memref sig .tc .vmem S1 .f32) (harg9 : arg9.IsWhole) (arg10 : Memref sig .tc .vmem S1024x1 .f32) (harg10 : arg10.IsWhole) (arg11 : Memref sig .tc .vmem S1024x272 .bf16) (harg11 : arg11.IsWhole)
    (x0 : Vec Ideal S1024x128 .bf16) (x1 : Vec Ideal S1024x128 .bf16) (x2 : Vec Ideal S1024x16 .f32) (x3 : Vec Ideal S272x128 .bf16) (x4 : Vec Ideal S128 .f32) (x5 : Vec Ideal S128x32 .bf16) (x6 : Vec Ideal S32 .f32) (x7 : Vec Ideal S32x1 .bf16) (x8 : Vec Ideal S1 .f32) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = k0_pay1 (F := Ideal) (k0_pay5 (View.canon (bands0 x0 x1 x2)) x3 x4 x5) (k0_pay6 x6) x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread, harg9.read_unread,
    View.ld_unit_zero (S := S1024x128) hz2, View.ld_unit_zero (S := S1024x16) hz2, View.ld_unit_zero (S := S272x128) hz2,
    View.ld_unit_zero (S := S128x32) hz2, View.ld_unit_zero (S := S32x1) hz2, View.ld_unit_zero (S := S128) hz1,
    View.ld_unit_zero (S := S32) hz1, View.ld_unit_zero (S := S1) hz1]
  exact congrArg (fun xc : Vec Ideal S1024x272 .bf16 => k0_pay1 (F := Ideal) (k0_pay5 xc x3 x4 x5) (k0_pay6 x6) x7 x8)
    (readCov_whole arg11.view (bands0 x0 x1 x2))

/-- THE BODY AT ONE EDGE: row `r` of the output block is the perceptron of the concatenation of rows `r` of the two
    gathered blocks and of the feature block. -/
theorem out0_row (c : Dev nD) (i : grid0.Coords) (arg1 : Memref sig .tc .vmem S1024x128 .bf16) (harg1 : arg1.IsWhole) (arg2 : Memref sig .tc .vmem S1024x128 .bf16) (harg2 : arg2.IsWhole) (arg3 : Memref sig .tc .vmem S1024x16 .f32) (harg3 : arg3.IsWhole) (arg4 : Memref sig .tc .vmem S272x128 .bf16) (harg4 : arg4.IsWhole) (arg5 : Memref sig .tc .vmem S128 .f32) (harg5 : arg5.IsWhole) (arg6 : Memref sig .tc .vmem S128x32 .bf16) (harg6 : arg6.IsWhole) (arg7 : Memref sig .tc .vmem S32 .f32) (harg7 : arg7.IsWhole) (arg8 : Memref sig .tc .vmem S32x1 .bf16) (harg8 : arg8.IsWhole) (arg9 : Memref sig .tc .vmem S1 .f32) (harg9 : arg9.IsWhole) (arg10 : Memref sig .tc .vmem S1024x1 .f32) (harg10 : arg10.IsWhole) (arg11 : Memref sig .tc .vmem S1024x272 .bf16) (harg11 : arg11.IsWhole)
    (x0 : Vec Ideal S1024x128 .bf16) (x1 : Vec Ideal S1024x128 .bf16) (x2 : Vec Ideal S1024x16 .f32) (x3 : Vec Ideal S272x128 .bf16) (x4 : Vec Ideal S128 .f32) (x5 : Vec Ideal S128x32 .bf16) (x6 : Vec Ideal S32 .f32) (x7 : Vec Ideal S32x1 .bf16) (x8 : Vec Ideal S1 .f32) (r : Fin 1024) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 r (0 : Fin 1))
      = EdgeMlp.mlp (EdgeMlp.cat3 (fun k => x0 (ix2 r k)) (fun k => x1 (ix2 r k)) (fun k => x2 (ix2 r k))) x3 x4 x5 x6 x7 x8 := by
  refine (congrFun (out0_eq c i arg1 harg1 arg2 harg2 arg3 harg3 arg4 harg4 arg5 harg5 arg6 harg6 arg7 harg7 arg8 harg8 arg9 harg9 arg10 harg10 arg11 harg11 x0 x1 x2 x3 x4 x5 x6 x7 x8) (ix2 r (0 : Fin 1))).trans ?_
  refine (body_0_apply _ x3 x4 x5 x6 x7 x8 r).trans ?_
  exact congrArg (fun x => EdgeMlp.mlp x x3 x4 x5 x6 x7 x8) (funext fun k => scratch0_apply x0 x1 x2 r k)

/-! ### The body's arithmetic at one row (region 1) -/

/-- The second bias, laid as a row over the 1024 rows. -/
theorem pay6_1_apply (b2 : Vec Ideal S32 .f32) (r : Fin 1024) (j : Fin 32) :
    k1_pay6 (F := Ideal) b2 (ix2 r j) = b2 (ix1 j) := by
  unfold k1_pay6
  exact rowBias_apply b2 _ _ r j

/-- The second product's row `r`: the first layer's row (product, bias, clamp at zero) times the second weights. -/
theorem pay5_1_apply (xc : Vec Ideal S1024x272 .bf16) (W1 : Vec Ideal S272x128 .bf16) (b1 : Vec Ideal S128 .f32)
    (W2 : Vec Ideal S128x32 .bf16) (r : Fin 1024) (j : Fin 32) :
    k1_pay5 (F := Ideal) xc W1 b1 W2 (ix2 r j)
      = ∑ k : Fin 128, EdgeMlp.dense (fun c => xc (ix2 r c)) W1 b1 k * W2 (ix2 k j) := by
  unfold k1_pay5
  refine (mm2 _ _ r j).trans ?_
  refine Finset.sum_congr rfl fun k _ => ?_
  refine congrArg₂ (· * ·) ?_ (congrFun (shapeCast_self W2 _) (ix2 k j))
  unfold EdgeMlp.dense
  refine (truncf_apply (φ := .f32) (ψ := .bf16) _ bitsLt_bf16_f32 (ix2 r k)).trans ?_
  refine (maximumf_apply (φ := .f32) _ _ (ix2 r k)).trans ?_
  refine congrArg₂ max ?_ rfl
  refine (addf_apply (φ := .f32) _ _ (ix2 r k)).trans ?_
  refine congrArg₂ (· + ·) ?_ (rowBias_apply b1 _ _ r k)
  refine (mm1 xc _ r k).trans ?_
  exact Finset.sum_congr rfl fun c _ => congrArg (xc (ix2 r c) * ·) (congrFun (shapeCast_self W1 _) (ix2 c k))

/-- The score of row `r` from the second product and the second bias: clamp at zero, third product, third bias,
    logistic. -/
theorem pay1_1_apply (p q : FVec Ideal S1024x32 .f32) (W3 : Vec Ideal S32x1 .bf16) (b3 : Vec Ideal S1 .f32) (r : Fin 1024) :
    k1_pay1 (F := Ideal) p q W3 b3 (ix2 r (0 : Fin 1))
      = Ideal.logistic ((∑ k : Fin 32, max (p (ix2 r k) + q (ix2 r k)) EdgeMlp.z32 * W3 (ix2 k (0 : Fin 1)))
          + b3 (ix1 (0 : Fin 1))) := by
  unfold k1_pay1
  refine congrArg Ideal.logistic ?_
  refine (addf_apply (φ := .f32) _ _ (ix2 r (0 : Fin 1))).trans ?_
  refine congrArg₂ (· + ·) ?_ (rowBias_apply b3 _ _ r (0 : Fin 1))
  refine (mm3 _ _ r (0 : Fin 1)).trans ?_
  refine Finset.sum_congr rfl fun k _ => ?_
  exact congrArg₂ (· * ·) rfl (congrFun (shapeCast_self W3 _) (ix2 k (0 : Fin 1)))

/-- The whole arithmetic of the body at row `r` of a 1024×272 block `xc`: the perceptron of that row. -/
theorem body_1_apply (xc : Vec Ideal S1024x272 .bf16) (W1 : Vec Ideal S272x128 .bf16) (b1 : Vec Ideal S128 .f32)
    (W2 : Vec Ideal S128x32 .bf16) (b2 : Vec Ideal S32 .f32) (W3 : Vec Ideal S32x1 .bf16) (b3 : Vec Ideal S1 .f32) (r : Fin 1024) :
    k1_pay1 (F := Ideal) (k1_pay5 xc W1 b1 W2) (k1_pay6 b2) W3 b3 (ix2 r (0 : Fin 1))
      = EdgeMlp.mlp (fun c => xc (ix2 r c)) W1 b1 W2 b2 W3 b3 := by
  refine (pay1_1_apply _ _ W3 b3 r).trans ?_
  unfold EdgeMlp.mlp
  refine congrArg Ideal.logistic (congrArg (· + b3 (ix1 (0 : Fin 1))) (Finset.sum_congr rfl fun k _ => ?_))
  rw [pay5_1_apply, pay6_1_apply]
  rfl

/-! ### The scratch read back (region 1)

The body stores the two gathered 1024×128 blocks and the narrowed 1024×16 feature block into columns 0–127,
128–255 and 256–271 of a 1024×272 scratch and then loads the scratch whole. Read at row `r` and column `k` the
load is whichever block holds column `k`: the three rows of the blocks laid side by side. -/

/-- The three stores, each a band and what is stored in it. -/
abbrev piece1_0 (x0 : Vec Ideal S1024x128 .bf16) : View.Piece (Elt Ideal) S1024x272 .bf16 := ⟨band0, k1_pay2 (F := Ideal) x0⟩
abbrev piece1_1 (x1 : Vec Ideal S1024x128 .bf16) : View.Piece (Elt Ideal) S1024x272 .bf16 := ⟨band1, k1_pay3 (F := Ideal) x1⟩
abbrev piece1_2 (x2 : Vec Ideal S1024x16 .f32) : View.Piece (Elt Ideal) S1024x272 .bf16 := ⟨band2, k1_pay4 (F := Ideal) x2⟩

/-- The three column bands as the stores leave them, the last store first. -/
def bands1 (x0 x1 : Vec Ideal S1024x128 .bf16) (x2 : Vec Ideal S1024x16 .f32) : List (View.Piece (Elt Ideal) S1024x272 .bf16) :=
  [piece1_2 x2, piece1_1 x1, piece1_0 x0]

/-- What is stored in the first band is the first block itself (two casts to its own shape). -/
theorem pay2_1_eq (x0 : Vec Ideal S1024x128 .bf16) : k1_pay2 (F := Ideal) x0 = x0 := by
  unfold k1_pay2
  exact (shapeCast_self _ _).trans (shapeCast_self x0 _)
/-- What is stored in the second band is the second block itself. -/
theorem pay3_1_eq (x1 : Vec Ideal S1024x128 .bf16) : k1_pay3 (F := Ideal) x1 = x1 := by
  unfold k1_pay3
  exact (shapeCast_self _ _).trans (shapeCast_self x1 _)
/-- What is stored in the third band is the feature block itself: over the extended reals the narrowing is the identity. -/
theorem pay4_1_eq (x2 : Vec Ideal S1024x16 .f32) : k1_pay4 (F := Ideal) x2 = x2 := by
  unfold k1_pay4
  refine (shapeCast_self _ _).trans ?_
  exact congrArg (fun v : FVec Ideal S1024x16 .f32 => (truncf .bf16 v bitsLt_bf16_f32 : FVec Ideal S1024x16 .bf16)) (shapeCast_self x2 _)

/-- A column below 128 reads the first block. -/
theorem scratch1_lo (x0 x1 : Vec Ideal S1024x128 .bf16) (x2 : Vec Ideal S1024x16 .f32) (r : Fin 1024) (k : Fin 272) (h : k.val < 128) :
    View.canon (bands1 x0 x1 x2) (ix2 r k) = x0 (ix2 r ⟨k.val, h⟩) := by
  unfold bands1
  refine (View.canon_cons_of_not_mem (piece1_2 x2) [piece1_1 x1, piece1_0 x0] (not_mem_band2 r k (by omega))).trans ?_
  refine (View.canon_cons_of_not_mem (piece1_1 x1) [piece1_0 x0] (not_mem_band1 r k h)).trans ?_
  refine (congrArg (View.canon [piece1_0 x0]) (emb_band0 r ⟨k.val, h⟩ k rfl).symm).trans ?_
  refine (View.canon_cons_emb (Val := Elt Ideal) (e := .bf16) band0 (k1_pay2 (F := Ideal) x0) [] (ix2 r ⟨k.val, h⟩)).trans ?_
  exact congrFun (pay2_1_eq x0) _
/-- A column from 128 to 255 reads the second block. -/
theorem scratch1_mid (x0 x1 : Vec Ideal S1024x128 .bf16) (x2 : Vec Ideal S1024x16 .f32) (r : Fin 1024) (k : Fin 272)
    (h : ¬ k.val < 128) (h2 : k.val < 256) :
    View.canon (bands1 x0 x1 x2) (ix2 r k) = x1 (ix2 r ⟨k.val - 128, by omega⟩) := by
  unfold bands1
  refine (View.canon_cons_of_not_mem (piece1_2 x2) [piece1_1 x1, piece1_0 x0] (not_mem_band2 r k h2)).trans ?_
  refine (congrArg (View.canon [piece1_1 x1, piece1_0 x0])
    (emb_band1 r ⟨k.val - 128, by omega⟩ k (by show k.val = 128 + (k.val - 128); omega)).symm).trans ?_
  refine (View.canon_cons_emb band1 (k1_pay3 (F := Ideal) x1) [piece1_0 x0] (ix2 r ⟨k.val - 128, by omega⟩)).trans ?_
  exact congrFun (pay3_1_eq x1) _
/-- A column from 256 on reads the feature block. -/
theorem scratch1_hi (x0 x1 : Vec Ideal S1024x128 .bf16) (x2 : Vec Ideal S1024x16 .f32) (r : Fin 1024) (k : Fin 272)
    (h2 : ¬ k.val < 256) :
    View.canon (bands1 x0 x1 x2) (ix2 r k) = x2 (ix2 r ⟨k.val - 256, by have := k.isLt; omega⟩) := by
  unfold bands1
  refine (congrArg (View.canon [piece1_2 x2, piece1_1 x1, piece1_0 x0])
    (emb_band2 r ⟨k.val - 256, by have := k.isLt; omega⟩ k (by show k.val = 256 + (k.val - 256); omega)).symm).trans ?_
  refine (View.canon_cons_emb band2 (k1_pay4 (F := Ideal) x2) [piece1_1 x1, piece1_0 x0]
    (ix2 r ⟨k.val - 256, by have := k.isLt; omega⟩)).trans ?_
  exact congrFun (pay4_1_eq x2) _

/-- The scratch at row `r`, column `k`, after the three stores: the three blocks' rows `r` side by side, at `k`. -/
theorem scratch1_apply (x0 x1 : Vec Ideal S1024x128 .bf16) (x2 : Vec Ideal S1024x16 .f32) (r : Fin 1024) (k : Fin 272) :
    View.canon (bands1 x0 x1 x2) (ix2 r k)
      = EdgeMlp.cat3 (fun c => x0 (ix2 r c)) (fun c => x1 (ix2 r c)) (fun c => x2 (ix2 r c)) k := by
  unfold EdgeMlp.cat3
  by_cases h : k.val < 128
  · rw [dif_pos h]; exact scratch1_lo x0 x1 x2 r k h
  · rw [dif_neg h]
    by_cases h2 : k.val < 256
    · rw [dif_pos h2]; exact scratch1_mid x0 x1 x2 r k h h2
    · rw [dif_neg h2]; exact scratch1_hi x0 x1 x2 r k h2

/-! ### The body's output (region 1) -/

/-- What the body leaves in the output's buffer: its arithmetic on the scratch read back and the six loaded
    parameter blocks. -/
theorem out1_eq (c : Dev nD) (i : grid1.Coords) (arg1 : Memref sig .tc .vmem S1024x128 .bf16) (harg1 : arg1.IsWhole) (arg2 : Memref sig .tc .vmem S1024x128 .bf16) (harg2 : arg2.IsWhole) (arg3 : Memref sig .tc .vmem S1024x16 .f32) (harg3 : arg3.IsWhole) (arg4 : Memref sig .tc .vmem S272x128 .bf16) (harg4 : arg4.IsWhole) (arg5 : Memref sig .tc .vmem S128 .f32) (harg5 : arg5.IsWhole) (arg6 : Memref sig .tc .vmem S128x32 .bf16) (harg6 : arg6.IsWhole) (arg7 : Memref sig .tc .vmem S32 .f32) (harg7 : arg7.IsWhole) (arg8 : Memref sig .tc .vmem S32x1 .bf16) (harg8 : arg8.IsWhole) (arg9 : Memref sig .tc .vmem S1 .f32) (harg9 : arg9.IsWhole) (arg10 : Memref sig .tc .vmem S1024x1 .f32) (harg10 : arg10.IsWhole) (arg11 : Memref sig .tc .vmem S1024x272 .bf16) (harg11 : arg11.IsWhole)
    (x0 : Vec Ideal S1024x128 .bf16) (x1 : Vec Ideal S1024x128 .bf16) (x2 : Vec Ideal S1024x16 .f32) (x3 : Vec Ideal S272x128 .bf16) (x4 : Vec Ideal S128 .f32) (x5 : Vec Ideal S128x32 .bf16) (x6 : Vec Ideal S32 .f32) (x7 : Vec Ideal S32x1 .bf16) (x8 : Vec Ideal S1 .f32) :
    out1_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8
      = k1_pay1 (F := Ideal) (k1_pay5 (View.canon (bands1 x0 x1 x2)) x3 x4 x5) (k1_pay6 x6) x7 x8 := by
  unfold out1_A_9
  rw [View.read_writes_eq_canon _ _ _ (cover1_A_9 c i arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun1_A
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread, harg9.read_unread,
    View.ld_unit_zero (S := S1024x128) hz2, View.ld_unit_zero (S := S1024x16) hz2, View.ld_unit_zero (S := S272x128) hz2,
    View.ld_unit_zero (S := S128x32) hz2, View.ld_unit_zero (S := S32x1) hz2, View.ld_unit_zero (S := S128) hz1,
    View.ld_unit_zero (S := S32) hz1, View.ld_unit_zero (S := S1) hz1]
  exact congrArg (fun xc : Vec Ideal S1024x272 .bf16 => k1_pay1 (F := Ideal) (k1_pay5 xc x3 x4 x5) (k1_pay6 x6) x7 x8)
    (readCov_whole arg11.view (bands1 x0 x1 x2))

/-- THE BODY AT ONE EDGE: row `r` of the output block is the perceptron of the concatenation of rows `r` of the two
    gathered blocks and of the feature block. -/
theorem out1_row (c : Dev nD) (i : grid1.Coords) (arg1 : Memref sig .tc .vmem S1024x128 .bf16) (harg1 : arg1.IsWhole) (arg2 : Memref sig .tc .vmem S1024x128 .bf16) (harg2 : arg2.IsWhole) (arg3 : Memref sig .tc .vmem S1024x16 .f32) (harg3 : arg3.IsWhole) (arg4 : Memref sig .tc .vmem S272x128 .bf16) (harg4 : arg4.IsWhole) (arg5 : Memref sig .tc .vmem S128 .f32) (harg5 : arg5.IsWhole) (arg6 : Memref sig .tc .vmem S128x32 .bf16) (harg6 : arg6.IsWhole) (arg7 : Memref sig .tc .vmem S32 .f32) (harg7 : arg7.IsWhole) (arg8 : Memref sig .tc .vmem S32x1 .bf16) (harg8 : arg8.IsWhole) (arg9 : Memref sig .tc .vmem S1 .f32) (harg9 : arg9.IsWhole) (arg10 : Memref sig .tc .vmem S1024x1 .f32) (harg10 : arg10.IsWhole) (arg11 : Memref sig .tc .vmem S1024x272 .bf16) (harg11 : arg11.IsWhole)
    (x0 : Vec Ideal S1024x128 .bf16) (x1 : Vec Ideal S1024x128 .bf16) (x2 : Vec Ideal S1024x16 .f32) (x3 : Vec Ideal S272x128 .bf16) (x4 : Vec Ideal S128 .f32) (x5 : Vec Ideal S128x32 .bf16) (x6 : Vec Ideal S32 .f32) (x7 : Vec Ideal S32x1 .bf16) (x8 : Vec Ideal S1 .f32) (r : Fin 1024) :
    out1_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix2 r (0 : Fin 1))
      = EdgeMlp.mlp (EdgeMlp.cat3 (fun k => x0 (ix2 r k)) (fun k => x1 (ix2 r k)) (fun k => x2 (ix2 r k))) x3 x4 x5 x6 x7 x8 := by
  refine (congrFun (out1_eq c i arg1 harg1 arg2 harg2 arg3 harg3 arg4 harg4 arg5 harg5 arg6 harg6 arg7 harg7 arg8 harg8 arg9 harg9 arg10 harg10 arg11 harg11 x0 x1 x2 x3 x4 x5 x6 x7 x8) (ix2 r (0 : Fin 1))).trans ?_
  refine (body_1_apply _ x3 x4 x5 x6 x7 x8 r).trans ?_
  exact congrArg (fun x => EdgeMlp.mlp x x3 x4 x5 x6 x7 x8) (funext fun k => scratch1_apply x0 x1 x2 r k)

end Cert.KernelIdeal.KBody

end
-- ==== Proof.KBlocks0.lean ====
/-
  Region 0 of the kernel: from blocks to the whole array.

  The region walks 489 grid points.  At point `t` the three row-blocked operands (the two gathered tables and the
  edge features) are staged as rows 1024 t … 1024 t + 1023 of their arrays, the six weight and bias operands as
  their whole arrays, and the body leaves in the result's staging buffer, row by row, the perceptron of the
  concatenated input row.  The result window writes its block back at every point, to rows 1024 t … 1024 t + 1023,
  and the 489 blocks tile the 500736 rows, so the result array ends, at row `e`, at the perceptron of row `e` of
  the operands as the region found them.
-/
import proofs.«410395_j88622355186219_3_alg».proof.Proof.Gen.KernelIdeal.Frame
import proofs.«410395_j88622355186219_3_alg».proof.Proof.Spec
import proofs.«410395_j88622355186219_3_alg».proof.Proof.KBody
import Idealize.ShloMosaic.Lib.Pipeline.Value
import Idealize.ShloMosaic.Lib.ValueIdx

set_option maxRecDepth 16384

noncomputable section

namespace Cert.KernelIdeal.KBlocks0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The index maps, decided once over the grid -/

/-- The result window and the three row-blocked operand windows sit at block `t` of the rows and block 0 of the columns;
    the six whole-array windows at block 0 on every axis. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Row `r` of block `t` as a row of a 500736-row array: 1024 t + r. -/
def row (t : Fin cfg0.N) (r : Fin 1024) : Fin 500736 :=
  ⟨t.val * 1024 + r.val, by have hN : cfg0.N = 489 := N_0; have := t.isLt; have := r.isLt; omega⟩

theorem row_val (t : Fin cfg0.N) (r : Fin 1024) : (row t r).val = t.val * 1024 + r.val := rfl

/-! ## The operand blocks, read at an index -/

/-- Block `t` of the first gathered table at (r, k) is the table at row 1024 t + r. -/
theorem blk0_apply (c : Dev nD) (t : Fin cfg0.N) (r : Fin 1024) (k : Fin 128) :
    (iblk0 V c 0 t : Vec Ideal S1024x128 .bf16) (ix2 r k) = V c main_v17 (ix2 (row t r) k) := by
  obtain ⟨-, -, e0, e1, -⟩ := idx_facts t
  unfold iblk0
  rw [View.read_apply]
  show V c main_v17 (((cfg0.win 0).blk t).view.emb (ix2 r k)) = _
  refine congrArg (V c main_v17) (funext fun a => Fin.ext ?_)
  match a with
  | ⟨0, _⟩ => show win0_0.index t (0 : Fin 2) * 1024 + 1 * r.val = t.val * 1024 + r.val; omega
  | ⟨1, _⟩ => show win0_0.index t (1 : Fin 2) * 128 + 1 * k.val = k.val; omega

/-- Block `t` of the second gathered table at (r, k) is the array at row 1024 t + r. -/
theorem blk1_apply (c : Dev nD) (t : Fin cfg0.N) (r : Fin 1024) (k : Fin 128) :
    (iblk0 V c 1 t : Vec Ideal S1024x128 .bf16) (ix2 r k) = V c main_v24 (ix2 (row t r) k) := by
  obtain ⟨f90, f91, f00, f01, f10, f11, f20, f21, f30, f31, f40, f50, f51, f60, f70, f71, f80⟩ := idx_facts t
  unfold iblk0
  rw [View.read_apply]
  show V c main_v24 (((cfg0.win 1).blk t).view.emb (ix2 r k)) = _
  refine congrArg (V c main_v24) (funext fun a => Fin.ext ?_)
  match a with
  | ⟨0, _⟩ => show win0_1.index t (0 : Fin 2) * 1024 + 1 * r.val = t.val * 1024 + r.val; omega
  | ⟨1, _⟩ => show win0_1.index t (1 : Fin 2) * 128 + 1 * k.val = k.val; omega

/-- Block `t` of the edge features at (r, k) is the array at row 1024 t + r. -/
theorem blk2_apply (c : Dev nD) (t : Fin cfg0.N) (r : Fin 1024) (k : Fin 16) :
    (iblk0 V c 2 t : Vec Ideal S1024x16 .f32) (ix2 r k) = V c main_v9 (ix2 (row t r) k) := by
  obtain ⟨f90, f91, f00, f01, f10, f11, f20, f21, f30, f31, f40, f50, f51, f60, f70, f71, f80⟩ := idx_facts t
  unfold iblk0
  rw [View.read_apply]
  show V c main_v9 (((cfg0.win 2).blk t).view.emb (ix2 r k)) = _
  refine congrArg (V c main_v9) (funext fun a => Fin.ext ?_)
  match a with
  | ⟨0, _⟩ => show win0_2.index t (0 : Fin 2) * 1024 + 1 * r.val = t.val * 1024 + r.val; omega
  | ⟨1, _⟩ => show win0_2.index t (1 : Fin 2) * 16 + 1 * k.val = k.val; omega

/-- The first layer's weights: the window's one block is the whole array, at every point. -/
theorem blk3_eq (c : Dev nD) (t : Fin cfg0.N) : (iblk0 V c 3 t : Vec Ideal S272x128 .bf16) = V c main_v2 := by
  obtain ⟨f90, f91, f00, f01, f10, f11, f20, f21, f30, f31, f40, f50, f51, f60, f70, f71, f80⟩ := idx_facts t
  funext j
  unfold iblk0
  rw [View.read_apply]
  show V c main_v2 (((cfg0.win 3).blk t).view.emb j) = V c main_v2 j
  refine congrArg (V c main_v2) (funext fun a => Fin.ext ?_)
  match a with
  | ⟨0, _⟩ => show win0_3.index t (0 : Fin 2) * 272 + 1 * (j 0).val = (j 0).val; omega
  | ⟨1, _⟩ => show win0_3.index t (1 : Fin 2) * 128 + 1 * (j 1).val = (j 1).val; omega

/-- The first layer's bias: the window's one block is the whole array, at every point. -/
theorem blk4_eq (c : Dev nD) (t : Fin cfg0.N) : (iblk0 V c 4 t : Vec Ideal S128 .f32) = V c main_arg5 := by
  obtain ⟨f90, f91, f00, f01, f10, f11, f20, f21, f30, f31, f40, f50, f51, f60, f70, f71, f80⟩ := idx_facts t
  funext j
  unfold iblk0
  rw [View.read_apply]
  show V c main_arg5 (((cfg0.win 4).blk t).view.emb j) = V c main_arg5 j
  refine congrArg (V c main_arg5) (funext fun a => Fin.ext ?_)
  match a with
  | ⟨0, _⟩ => show win0_4.index t (0 : Fin 1) * 128 + 1 * (j 0).val = (j 0).val; omega

/-- The second layer's weights: the window's one block is the whole array, at every point. -/
theorem blk5_eq (c : Dev nD) (t : Fin cfg0.N) : (iblk0 V c 5 t : Vec Ideal S128x32 .bf16) = V c main_v3 := by
  obtain ⟨f90, f91, f00, f01, f10, f11, f20, f21, f30, f31, f40, f50, f51, f60, f70, f71, f80⟩ := idx_facts t
  funext j
  unfold iblk0
  rw [View.read_apply]
  show V c main_v3 (((cfg0.win 5).blk t).view.emb j) = V c main_v3 j
  refine congrArg (V c main_v3) (funext fun a => Fin.ext ?_)
  match a with
  | ⟨0, _⟩ => show win0_5.index t (0 : Fin 2) * 128 + 1 * (j 0).val = (j 0).val; omega
  | ⟨1, _⟩ => show win0_5.index t (1 : Fin 2) * 32 + 1 * (j 1).val = (j 1).val; omega

/-- The second layer's bias: the window's one block is the whole array, at every point. -/
theorem blk6_eq (c : Dev nD) (t : Fin cfg0.N) : (iblk0 V c 6 t : Vec Ideal S32 .f32) = V c main_arg7 := by
  obtain ⟨f90, f91, f00, f01, f10, f11, f20, f21, f30, f31, f40, f50, f51, f60, f70, f71, f80⟩ := idx_facts t
  funext j
  unfold iblk0
  rw [View.read_apply]
  show V c main_arg7 (((cfg0.win 6).blk t).view.emb j) = V c main_arg7 j
  refine congrArg (V c main_arg7) (funext fun a => Fin.ext ?_)
  match a with
  | ⟨0, _⟩ => show win0_6.index t (0 : Fin 1) * 32 + 1 * (j 0).val = (j 0).val; omega

/-- The output layer's weights: the window's one block is the whole array, at every point. -/
theorem blk7_eq (c : Dev nD) (t : Fin cfg0.N) : (iblk0 V c 7 t : Vec Ideal S32x1 .bf16) = V c main_v4 := by
  obtain ⟨f90, f91, f00, f01, f10, f11, f20, f21, f30, f31, f40, f50, f51, f60, f70, f71, f80⟩ := idx_facts t
  funext j
  unfold iblk0
  rw [View.read_apply]
  show V c main_v4 (((cfg0.win 7).blk t).view.emb j) = V c main_v4 j
  refine congrArg (V c main_v4) (funext fun a => Fin.ext ?_)
  match a with
  | ⟨0, _⟩ => show win0_7.index t (0 : Fin 2) * 32 + 1 * (j 0).val = (j 0).val; omega
  | ⟨1, _⟩ => show win0_7.index t (1 : Fin 2) * 1 + 1 * (j 1).val = (j 1).val; omega

/-- The output layer's bias: the window's one block is the whole array, at every point. -/
theorem blk8_eq (c : Dev nD) (t : Fin cfg0.N) : (iblk0 V c 8 t : Vec Ideal S1 .f32) = V c main_arg9 := by
  obtain ⟨f90, f91, f00, f01, f10, f11, f20, f21, f30, f31, f40, f50, f51, f60, f70, f71, f80⟩ := idx_facts t
  funext j
  unfold iblk0
  rw [View.read_apply]
  show V c main_arg9 (((cfg0.win 8).blk t).view.emb j) = V c main_arg9 j
  refine congrArg (V c main_arg9) (funext fun a => Fin.ext ?_)
  match a with
  | ⟨0, _⟩ => show win0_8.index t (0 : Fin 1) * 1 + 1 * (j 0).val = (j 0).val; omega

/-! ## The specification's row function over the region's operands -/

/-- The perceptron of row `e` of the operands as the region finds them. -/
def rowFn (c : Dev nD) (e : Fin 500736) : EReal :=
  EdgeMlp.mlp (EdgeMlp.cat3 (fun k => V c main_v17 (ix2 e k)) (fun k => V c main_v24 (ix2 e k)) (fun k => V c main_v9 (ix2 e k)))
    (V c main_v2) (V c main_arg5) (V c main_v3) (V c main_arg7) (V c main_v4) (V c main_arg9)

/-- The result array the region leaves: row `e` holds `rowFn` of row `e`. -/
def G (c : Dev nD) : S500736x1.Idx → EReal := fun i => rowFn V c ⟨(i 0).val, idx2_lt0 i⟩

/-! ## What the body leaves at a point, and what the point writes back -/

/-- After the body at point `t`, row `r` of the result's staging buffer is `rowFn` of row 1024 t + r. -/
theorem outsAt_row (c : Dev nD) (t : Fin cfg0.N) (r : Fin 1024) :
    outsAt0 V c t (ix2 r (0 : Fin 1)) = rowFn V c (row t r) := by
  unfold outsAt0
  refine (Cert.KernelIdeal.KBody.out0_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _)
    (iblk0 V c 0 t) (iblk0 V c 1 t) (iblk0 V c 2 t) (iblk0 V c 3 t) (iblk0 V c 4 t) (iblk0 V c 5 t) (iblk0 V c 6 t) (iblk0 V c 7 t) (iblk0 V c 8 t) r).trans ?_
  unfold rowFn
  have e0 : (fun k : Fin 128 => (iblk0 V c 0 t : Vec Ideal S1024x128 .bf16) (ix2 r k)) = fun k => V c main_v17 (ix2 (row t r) k) :=
    funext fun k => blk0_apply V c t r k
  have e1 : (fun k : Fin 128 => (iblk0 V c 1 t : Vec Ideal S1024x128 .bf16) (ix2 r k)) = fun k => V c main_v24 (ix2 (row t r) k) :=
    funext fun k => blk1_apply V c t r k
  have e2 : (fun k : Fin 16 => (iblk0 V c 2 t : Vec Ideal S1024x16 .f32) (ix2 r k)) = fun k => V c main_v9 (ix2 (row t r) k) :=
    funext fun k => blk2_apply V c t r k
  rw [e0, e1, e2, blk3_eq V c t, blk4_eq V c t, blk5_eq V c t, blk6_eq V c t, blk7_eq V c t, blk8_eq V c t]

/-- Where row `r` of the result's block at point `t` sits in the result array: row 1024 t + r, column 0. -/
theorem emb9 (t : Fin cfg0.N) (r : Fin 1024) :
    ((cfg0.win 9).blk t).view.emb (ix2 r (0 : Fin 1)) = ix2 (row t r) (0 : Fin 1) := by
  obtain ⟨f90, f91, f00, f01, f10, f11, f20, f21, f30, f31, f40, f50, f51, f60, f70, f71, f80⟩ := idx_facts t
  refine funext fun a => Fin.ext ?_
  match a with
  | ⟨0, _⟩ => show win0_9.index t (0 : Fin 2) * 1024 + 1 * r.val = t.val * 1024 + r.val; omega
  | ⟨1, _⟩ => show win0_9.index t (1 : Fin 2) * 1 + 1 * 0 = 0; omega

/-- What point `t` writes back is block `t` of `G`. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  funext j
  obtain ⟨r, q, rfl⟩ : ∃ (r : Fin 1024) (q : Fin 1), j = ix2 r q := ⟨j 0, j 1, eq_ix2 j⟩
  obtain rfl : q = 0 := Subsingleton.elim _ _
  rw [View.read_apply]
  show outsAt0 V c t (ix2 r (0 : Fin 1)) = G V c (((cfg0.win 9).blk t).view.emb (ix2 r (0 : Fin 1)))
  rw [outsAt_row, emb9]
  rfl

/-! ## The result array after the region -/

/-- Every row `e` lies in the block of point `e / 1024`, at row `e % 1024` of it, and every point writes back its
    block of the one array `G`; so whichever points cover a row, the array ends at `G` there. -/
theorem final (c : Dev nD) : (dat0 V c).arrAt 9 cfg0.N = G V c := by
  funext i
  have hN : cfg0.N = 489 := N_0
  have hi0 : (i 0).val < 500736 := idx2_lt0 i
  have hi1 : (i 1).val < 1 := idx2_lt1 i
  obtain ⟨t, ht⟩ : ∃ t : Fin cfg0.N, t.val = (i 0).val / 1024 := ⟨⟨(i 0).val / 1024, by omega⟩, rfl⟩
  obtain ⟨r, hr⟩ : ∃ r : Fin 1024, r.val = (i 0).val % 1024 := ⟨⟨(i 0).val % 1024, Nat.mod_lt _ (by decide)⟩, rfl⟩
  have he : ((cfg0.win 9).blk t).view.emb (ix2 r (0 : Fin 1)) = i := by
    rw [emb9]
    refine funext fun a => Fin.ext ?_
    match a with
    | ⟨0, _⟩ => show t.val * 1024 + r.val = (i 0).val; omega
    | ⟨1, _⟩ => show 0 = (i 1).val; omega
  have h := congrFun ((dat0 V c).read_blk_arrAt 9 (G V c) (fun t _ => flushed_eq V c t) t (flush0_9 t)) (ix2 r (0 : Fin 1))
  rw [View.read_apply, View.read_apply, he] at h
  exact h

end Cert.KernelIdeal.KBlocks0

end
-- ==== Proof.KBlocks1.lean ====
/-
  Region 1 of the kernel: from blocks to the whole array.

  The region walks 489 grid points.  At point `t` the three row-blocked operands (the two gathered tables and the
  edge features) are staged as rows 1024 t … 1024 t + 1023 of their arrays, the six weight and bias operands as
  their whole arrays, and the body leaves in the result's staging buffer, row by row, the perceptron of the
  concatenated input row.  The result window writes its block back at every point, to rows 1024 t … 1024 t + 1023,
  and the 489 blocks tile the 500736 rows, so the result array ends, at row `e`, at the perceptron of row `e` of
  the operands as the region found them.
-/
import proofs.«410395_j88622355186219_3_alg».proof.Proof.Gen.KernelIdeal.Frame
import proofs.«410395_j88622355186219_3_alg».proof.Proof.Spec
import proofs.«410395_j88622355186219_3_alg».proof.Proof.KBody
import Idealize.ShloMosaic.Lib.Pipeline.Value
import Idealize.ShloMosaic.Lib.ValueIdx

set_option maxRecDepth 16384

noncomputable section

namespace Cert.KernelIdeal.KBlocks1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The index maps, decided once over the grid -/

/-- The result window and the three row-blocked operand windows sit at block `t` of the rows and block 0 of the columns;
    the six whole-array windows at block 0 on every axis. -/
theorem idx_facts : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- Row `r` of block `t` as a row of a 500736-row array: 1024 t + r. -/
def row (t : Fin cfg1.N) (r : Fin 1024) : Fin 500736 :=
  ⟨t.val * 1024 + r.val, by have hN : cfg1.N = 489 := N_1; have := t.isLt; have := r.isLt; omega⟩

theorem row_val (t : Fin cfg1.N) (r : Fin 1024) : (row t r).val = t.val * 1024 + r.val := rfl

/-! ## The operand blocks, read at an index -/

/-- Block `t` of the first gathered table at (r, k) is the table at row 1024 t + r. -/
theorem blk0_apply (c : Dev nD) (t : Fin cfg1.N) (r : Fin 1024) (k : Fin 128) :
    (iblk1 V c 0 t : Vec Ideal S1024x128 .bf16) (ix2 r k) = V c main_v31 (ix2 (row t r) k) := by
  obtain ⟨-, -, e0, e1, -⟩ := idx_facts t
  unfold iblk1
  rw [View.read_apply]
  show V c main_v31 (((cfg1.win 0).blk t).view.emb (ix2 r k)) = _
  refine congrArg (V c main_v31) (funext fun a => Fin.ext ?_)
  match a with
  | ⟨0, _⟩ => show win1_0.index t (0 : Fin 2) * 1024 + 1 * r.val = t.val * 1024 + r.val; omega
  | ⟨1, _⟩ => show win1_0.index t (1 : Fin 2) * 128 + 1 * k.val = k.val; omega

/-- Block `t` of the second gathered table at (r, k) is the array at row 1024 t + r. -/
theorem blk1_apply (c : Dev nD) (t : Fin cfg1.N) (r : Fin 1024) (k : Fin 128) :
    (iblk1 V c 1 t : Vec Ideal S1024x128 .bf16) (ix2 r k) = V c main_v38 (ix2 (row t r) k) := by
  obtain ⟨f90, f91, f00, f01, f10, f11, f20, f21, f30, f31, f40, f50, f51, f60, f70, f71, f80⟩ := idx_facts t
  unfold iblk1
  rw [View.read_apply]
  show V c main_v38 (((cfg1.win 1).blk t).view.emb (ix2 r k)) = _
  refine congrArg (V c main_v38) (funext fun a => Fin.ext ?_)
  match a with
  | ⟨0, _⟩ => show win1_1.index t (0 : Fin 2) * 1024 + 1 * r.val = t.val * 1024 + r.val; omega
  | ⟨1, _⟩ => show win1_1.index t (1 : Fin 2) * 128 + 1 * k.val = k.val; omega

/-- Block `t` of the edge features at (r, k) is the array at row 1024 t + r. -/
theorem blk2_apply (c : Dev nD) (t : Fin cfg1.N) (r : Fin 1024) (k : Fin 16) :
    (iblk1 V c 2 t : Vec Ideal S1024x16 .f32) (ix2 r k) = V c main_v10 (ix2 (row t r) k) := by
  obtain ⟨f90, f91, f00, f01, f10, f11, f20, f21, f30, f31, f40, f50, f51, f60, f70, f71, f80⟩ := idx_facts t
  unfold iblk1
  rw [View.read_apply]
  show V c main_v10 (((cfg1.win 2).blk t).view.emb (ix2 r k)) = _
  refine congrArg (V c main_v10) (funext fun a => Fin.ext ?_)
  match a with
  | ⟨0, _⟩ => show win1_2.index t (0 : Fin 2) * 1024 + 1 * r.val = t.val * 1024 + r.val; omega
  | ⟨1, _⟩ => show win1_2.index t (1 : Fin 2) * 16 + 1 * k.val = k.val; omega

/-- The first layer's weights: the window's one block is the whole array, at every point. -/
theorem blk3_eq (c : Dev nD) (t : Fin cfg1.N) : (iblk1 V c 3 t : Vec Ideal S272x128 .bf16) = V c main_v2 := by
  obtain ⟨f90, f91, f00, f01, f10, f11, f20, f21, f30, f31, f40, f50, f51, f60, f70, f71, f80⟩ := idx_facts t
  funext j
  unfold iblk1
  rw [View.read_apply]
  show V c main_v2 (((cfg1.win 3).blk t).view.emb j) = V c main_v2 j
  refine congrArg (V c main_v2) (funext fun a => Fin.ext ?_)
  match a with
  | ⟨0, _⟩ => show win1_3.index t (0 : Fin 2) * 272 + 1 * (j 0).val = (j 0).val; omega
  | ⟨1, _⟩ => show win1_3.index t (1 : Fin 2) * 128 + 1 * (j 1).val = (j 1).val; omega

/-- The first layer's bias: the window's one block is the whole array, at every point. -/
theorem blk4_eq (c : Dev nD) (t : Fin cfg1.N) : (iblk1 V c 4 t : Vec Ideal S128 .f32) = V c main_arg5 := by
  obtain ⟨f90, f91, f00, f01, f10, f11, f20, f21, f30, f31, f40, f50, f51, f60, f70, f71, f80⟩ := idx_facts t
  funext j
  unfold iblk1
  rw [View.read_apply]
  show V c main_arg5 (((cfg1.win 4).blk t).view.emb j) = V c main_arg5 j
  refine congrArg (V c main_arg5) (funext fun a => Fin.ext ?_)
  match a with
  | ⟨0, _⟩ => show win1_4.index t (0 : Fin 1) * 128 + 1 * (j 0).val = (j 0).val; omega

/-- The second layer's weights: the window's one block is the whole array, at every point. -/
theorem blk5_eq (c : Dev nD) (t : Fin cfg1.N) : (iblk1 V c 5 t : Vec Ideal S128x32 .bf16) = V c main_v3 := by
  obtain ⟨f90, f91, f00, f01, f10, f11, f20, f21, f30, f31, f40, f50, f51, f60, f70, f71, f80⟩ := idx_facts t
  funext j
  unfold iblk1
  rw [View.read_apply]
  show V c main_v3 (((cfg1.win 5).blk t).view.emb j) = V c main_v3 j
  refine congrArg (V c main_v3) (funext fun a => Fin.ext ?_)
  match a with
  | ⟨0, _⟩ => show win1_5.index t (0 : Fin 2) * 128 + 1 * (j 0).val = (j 0).val; omega
  | ⟨1, _⟩ => show win1_5.index t (1 : Fin 2) * 32 + 1 * (j 1).val = (j 1).val; omega

/-- The second layer's bias: the window's one block is the whole array, at every point. -/
theorem blk6_eq (c : Dev nD) (t : Fin cfg1.N) : (iblk1 V c 6 t : Vec Ideal S32 .f32) = V c main_arg7 := by
  obtain ⟨f90, f91, f00, f01, f10, f11, f20, f21, f30, f31, f40, f50, f51, f60, f70, f71, f80⟩ := idx_facts t
  funext j
  unfold iblk1
  rw [View.read_apply]
  show V c main_arg7 (((cfg1.win 6).blk t).view.emb j) = V c main_arg7 j
  refine congrArg (V c main_arg7) (funext fun a => Fin.ext ?_)
  match a with
  | ⟨0, _⟩ => show win1_6.index t (0 : Fin 1) * 32 + 1 * (j 0).val = (j 0).val; omega

/-- The output layer's weights: the window's one block is the whole array, at every point. -/
theorem blk7_eq (c : Dev nD) (t : Fin cfg1.N) : (iblk1 V c 7 t : Vec Ideal S32x1 .bf16) = V c main_v4 := by
  obtain ⟨f90, f91, f00, f01, f10, f11, f20, f21, f30, f31, f40, f50, f51, f60, f70, f71, f80⟩ := idx_facts t
  funext j
  unfold iblk1
  rw [View.read_apply]
  show V c main_v4 (((cfg1.win 7).blk t).view.emb j) = V c main_v4 j
  refine congrArg (V c main_v4) (funext fun a => Fin.ext ?_)
  match a with
  | ⟨0, _⟩ => show win1_7.index t (0 : Fin 2) * 32 + 1 * (j 0).val = (j 0).val; omega
  | ⟨1, _⟩ => show win1_7.index t (1 : Fin 2) * 1 + 1 * (j 1).val = (j 1).val; omega

/-- The output layer's bias: the window's one block is the whole array, at every point. -/
theorem blk8_eq (c : Dev nD) (t : Fin cfg1.N) : (iblk1 V c 8 t : Vec Ideal S1 .f32) = V c main_arg9 := by
  obtain ⟨f90, f91, f00, f01, f10, f11, f20, f21, f30, f31, f40, f50, f51, f60, f70, f71, f80⟩ := idx_facts t
  funext j
  unfold iblk1
  rw [View.read_apply]
  show V c main_arg9 (((cfg1.win 8).blk t).view.emb j) = V c main_arg9 j
  refine congrArg (V c main_arg9) (funext fun a => Fin.ext ?_)
  match a with
  | ⟨0, _⟩ => show win1_8.index t (0 : Fin 1) * 1 + 1 * (j 0).val = (j 0).val; omega

/-! ## The specification's row function over the region's operands -/

/-- The perceptron of row `e` of the operands as the region finds them. -/
def rowFn (c : Dev nD) (e : Fin 500736) : EReal :=
  EdgeMlp.mlp (EdgeMlp.cat3 (fun k => V c main_v31 (ix2 e k)) (fun k => V c main_v38 (ix2 e k)) (fun k => V c main_v10 (ix2 e k)))
    (V c main_v2) (V c main_arg5) (V c main_v3) (V c main_arg7) (V c main_v4) (V c main_arg9)

/-- The result array the region leaves: row `e` holds `rowFn` of row `e`. -/
def G (c : Dev nD) : S500736x1.Idx → EReal := fun i => rowFn V c ⟨(i 0).val, idx2_lt0 i⟩

/-! ## What the body leaves at a point, and what the point writes back -/

/-- After the body at point `t`, row `r` of the result's staging buffer is `rowFn` of row 1024 t + r. -/
theorem outsAt_row (c : Dev nD) (t : Fin cfg1.N) (r : Fin 1024) :
    outsAt1 V c t (ix2 r (0 : Fin 1)) = rowFn V c (row t r) := by
  unfold outsAt1
  refine (Cert.KernelIdeal.KBody.out1_row c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) scM1_0 (Memref.isWhole_whole _)
    (iblk1 V c 0 t) (iblk1 V c 1 t) (iblk1 V c 2 t) (iblk1 V c 3 t) (iblk1 V c 4 t) (iblk1 V c 5 t) (iblk1 V c 6 t) (iblk1 V c 7 t) (iblk1 V c 8 t) r).trans ?_
  unfold rowFn
  have e0 : (fun k : Fin 128 => (iblk1 V c 0 t : Vec Ideal S1024x128 .bf16) (ix2 r k)) = fun k => V c main_v31 (ix2 (row t r) k) :=
    funext fun k => blk0_apply V c t r k
  have e1 : (fun k : Fin 128 => (iblk1 V c 1 t : Vec Ideal S1024x128 .bf16) (ix2 r k)) = fun k => V c main_v38 (ix2 (row t r) k) :=
    funext fun k => blk1_apply V c t r k
  have e2 : (fun k : Fin 16 => (iblk1 V c 2 t : Vec Ideal S1024x16 .f32) (ix2 r k)) = fun k => V c main_v10 (ix2 (row t r) k) :=
    funext fun k => blk2_apply V c t r k
  rw [e0, e1, e2, blk3_eq V c t, blk4_eq V c t, blk5_eq V c t, blk6_eq V c t, blk7_eq V c t, blk8_eq V c t]

/-- Where row `r` of the result's block at point `t` sits in the result array: row 1024 t + r, column 0. -/
theorem emb9 (t : Fin cfg1.N) (r : Fin 1024) :
    ((cfg1.win 9).blk t).view.emb (ix2 r (0 : Fin 1)) = ix2 (row t r) (0 : Fin 1) := by
  obtain ⟨f90, f91, f00, f01, f10, f11, f20, f21, f30, f31, f40, f50, f51, f60, f70, f71, f80⟩ := idx_facts t
  refine funext fun a => Fin.ext ?_
  match a with
  | ⟨0, _⟩ => show win1_9.index t (0 : Fin 2) * 1024 + 1 * r.val = t.val * 1024 + r.val; omega
  | ⟨1, _⟩ => show win1_9.index t (1 : Fin 2) * 1 + 1 * 0 = 0; omega

/-- What point `t` writes back is block `t` of `G`. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  funext j
  obtain ⟨r, q, rfl⟩ : ∃ (r : Fin 1024) (q : Fin 1), j = ix2 r q := ⟨j 0, j 1, eq_ix2 j⟩
  obtain rfl : q = 0 := Subsingleton.elim _ _
  rw [View.read_apply]
  show outsAt1 V c t (ix2 r (0 : Fin 1)) = G V c (((cfg1.win 9).blk t).view.emb (ix2 r (0 : Fin 1)))
  rw [outsAt_row, emb9]
  rfl

/-! ## The result array after the region -/

/-- Every row `e` lies in the block of point `e / 1024`, at row `e % 1024` of it, and every point writes back its
    block of the one array `G`; so whichever points cover a row, the array ends at `G` there. -/
theorem final (c : Dev nD) : (dat1 V c).arrAt 9 cfg1.N = G V c := by
  funext i
  have hN : cfg1.N = 489 := N_1
  have hi0 : (i 0).val < 500736 := idx2_lt0 i
  have hi1 : (i 1).val < 1 := idx2_lt1 i
  obtain ⟨t, ht⟩ : ∃ t : Fin cfg1.N, t.val = (i 0).val / 1024 := ⟨⟨(i 0).val / 1024, by omega⟩, rfl⟩
  obtain ⟨r, hr⟩ : ∃ r : Fin 1024, r.val = (i 0).val % 1024 := ⟨⟨(i 0).val % 1024, Nat.mod_lt _ (by decide)⟩, rfl⟩
  have he : ((cfg1.win 9).blk t).view.emb (ix2 r (0 : Fin 1)) = i := by
    rw [emb9]
    refine funext fun a => Fin.ext ?_
    match a with
    | ⟨0, _⟩ => show t.val * 1024 + r.val = (i 0).val; omega
    | ⟨1, _⟩ => show 0 = (i 1).val; omega
  have h := congrFun ((dat1 V c).read_blk_arrAt 9 (G V c) (fun t _ => flushed_eq V c t) t (flush1_9 t)) (ix2 r (0 : Fin 1))
  rw [View.read_apply, View.read_apply, he] at h
  exact h

end Cert.KernelIdeal.KBlocks1

end
-- ==== Proof.KValue.lean ====
/-
  The kernel's two results are the specification's scores.

  The program gathers, for each edge type, the source and destination table rows of every edge (the edge lists padded
  with zeros to 500736 = 489 · 1024 rows), runs the edge-scoring region once per edge type over 489 blocks of 1024
  edges, and returns the first 500000 rows of each region's 500736×1 output. Row `e` of a region's output is the
  three-layer perceptron of the concatenation of the three input rows `e`; for `e` below 500000 the gathered rows are the
  table rows the edge's own index words name and the feature row is the edge's own, and the weight and bias arrays the
  region reads are the arguments themselves over the extended reals. So each result is, index by index,
  `EdgeMlp.scores` of the launch memory's arguments, and the program's run ends with the two result buffers at those
  scores and every argument as launched.
-/
import proofs.«410395_j88622355186219_3_alg».proof.Proof.Gen.KernelIdeal.Frame
import proofs.«410395_j88622355186219_3_alg».proof.Proof.Spec
import proofs.«410395_j88622355186219_3_alg».proof.Proof.KRun
import proofs.«410395_j88622355186219_3_alg».proof.Proof.KHost
import proofs.«410395_j88622355186219_3_alg».proof.Proof.KBlocks0
import proofs.«410395_j88622355186219_3_alg».proof.Proof.KBlocks1
import Idealize.ShloMosaic.Lib.StableHlo.Run
import Idealize.ShloMosaic.Lib.ValueIdx
import Idealize.ShloMosaic.Lib.ValueLayout

set_option maxRecDepth 16384

noncomputable section

namespace Cert.KernelIdeal.KValue

open Cert.KernelIdeal Cert.KernelIdeal.Gen
open Idealize.ShloMosaic Idealize.ShloMosaic.TcCoe Idealize.ShloMosaic.StableHlo Idealize.SL.Sem
open Idealize.ShloMosaic.ValueIdx

variable (m : (ℓ : Loc nD τ sig) → Buf (Elt Ideal) ℓ) (ρ : Dev nD → PrngReg)

/-! ### The perceptron of equal rows under equal parameters -/

/-- The perceptron of a concatenated row depends only on the three pieces and the six parameter arrays. -/
theorem mlp_congr {a a' b b' : Fin 128 → EReal} {f f' : Fin 16 → EReal} {W1 W1' : EdgeMlp.Mat 272 128} {b1 b1' : EdgeMlp.Row 128}
    {W2 W2' : EdgeMlp.Mat 128 32} {b2 b2' : EdgeMlp.Row 32} {W3 W3' : EdgeMlp.Mat 32 1} {b3 b3' : EdgeMlp.Row 1}
    (ha : a = a') (hb : b = b') (hf : f = f') (h1 : W1 = W1') (h2 : b1 = b1') (h3 : W2 = W2') (h4 : b2 = b2') (h5 : W3 = W3')
    (h6 : b3 = b3') :
    EdgeMlp.mlp (EdgeMlp.cat3 a b f) W1 b1 W2 b2 W3 b3 = EdgeMlp.mlp (EdgeMlp.cat3 a' b' f') W1' b1' W2' b2' W3' b3' := by
  subst ha hb hf h1 h2 h3 h4 h5 h6; rfl

/-! ### The two results are the first 500000 rows of the two regions' output arrays -/

/-- The first result buffer at the end: the first region's output array, cut to its first 500000 rows. -/
theorem v41_eq (c : Dev nD) :
    W16 m ρ c (Proc.devRef .tc main_v41)
      = extractStridedSlice S500000x1 ![0, 0] (W15 m ρ c (Proc.devRef .tc main_v39)) slices_S500736x1_S500000x1_0_0 := by
  dsimp only [W16]; simp only [hostOps2]; after_results

/-- The second result buffer at the end: the second region's output array, cut to its first 500000 rows. -/
theorem v42_eq (c : Dev nD) :
    W16 m ρ c (Proc.devRef .tc main_v42)
      = extractStridedSlice S500000x1 ![0, 0] (W15 m ρ c (Proc.devRef .tc main_v40)) slices_S500736x1_S500000x1_0_0 := by
  dsimp only [W16]; simp only [hostOps2]; after_results

/-- The first region's output array is untouched by the second region and holds, row by row, the perceptron of the
    rows the first region was given. -/
theorem v39_eq (c : Dev nD) : W15 m ρ c (Proc.devRef .tc main_v39) = KBlocks0.G (V13 m ρ) c :=
  (W15_of_ne m ρ c main_v39 (by decide)).trans ((W14_arr m ρ c 9).trans (KBlocks0.final (V13 m ρ) c))

/-- The second region's output array holds, row by row, the perceptron of the rows the second region was given. -/
theorem v40_eq (c : Dev nD) : W15 m ρ c (Proc.devRef .tc main_v40) = KBlocks1.G (V14 m ρ) c :=
  (W15_arr m ρ c 9).trans (KBlocks1.final (V14 m ρ) c)

/-! ### The two results are the specification's scores -/

/-- THE FIRST RESULT: the scores of the `orders` edges — sources in the first table, destinations in the second. -/
theorem out_orders (c : Dev nD) :
    (W16 m ρ c (Proc.devRef .tc main_v41) : EdgeMlp.Mat 500000 1)
      = EdgeMlp.scores (Ns := 100000) (Nd := 50000) (E := 500000) (by decide) (by decide) 100000#32 50000#32
        (m ((c : Thread nD τ).loc main_arg0)) (m ((c : Thread nD τ).loc main_arg1)) (m ((c : Thread nD τ).loc main_arg2)) (m ((c : Thread nD τ).loc main_arg10)) (m ((c : Thread nD τ).loc main_arg11))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨e, q, rfl⟩ : ∃ (e : Fin 500000) (q : Fin 1), i = ix2 e q := ⟨i 0, i 1, eq_ix2 i⟩
  have he : e.val < 500736 := by have := e.isLt; omega
  refine (congrFun (v41_eq m ρ c) (ix2 e q)).trans ?_
  refine (slice2_axis0_apply 0 (W15 m ρ c (Proc.devRef .tc main_v39)) slices_S500736x1_S500000x1_0_0 e q ⟨e.val, he⟩
    (Nat.zero_add _).symm).trans ?_
  refine (congrFun (v39_eq m ρ c) (ix2 ⟨e.val, he⟩ q)).trans ?_
  unfold KBlocks0.G KBlocks0.rowFn EdgeMlp.scores EdgeMlp.xrow
  refine mlp_congr (funext fun k => ?_) (funext fun k => ?_) (funext fun k => ?_) (KHost.v2_eq m ρ c) (KHost.arg5_eq m ρ c)
    (KHost.v3_eq m ρ c) (KHost.arg7_eq m ρ c) (KHost.v4_eq m ρ c) (KHost.arg9_eq m ρ c)
  · exact KHost.v17_row m ρ c ⟨e.val, he⟩ e.isLt k
  · exact KHost.v24_row m ρ c ⟨e.val, he⟩ e.isLt k
  · exact KHost.v9_row m ρ c ⟨e.val, he⟩ e.isLt k

/-- THE SECOND RESULT: the scores of the `rev` edges — sources in the second table, destinations in the first. -/
theorem out_rev (c : Dev nD) :
    (W16 m ρ c (Proc.devRef .tc main_v42) : EdgeMlp.Mat 500000 1)
      = EdgeMlp.scores (Ns := 50000) (Nd := 100000) (E := 500000) (by decide) (by decide) 50000#32 100000#32
        (m ((c : Thread nD τ).loc main_arg1)) (m ((c : Thread nD τ).loc main_arg0)) (m ((c : Thread nD τ).loc main_arg3)) (m ((c : Thread nD τ).loc main_arg12)) (m ((c : Thread nD τ).loc main_arg13))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨e, q, rfl⟩ : ∃ (e : Fin 500000) (q : Fin 1), i = ix2 e q := ⟨i 0, i 1, eq_ix2 i⟩
  have he : e.val < 500736 := by have := e.isLt; omega
  refine (congrFun (v42_eq m ρ c) (ix2 e q)).trans ?_
  refine (slice2_axis0_apply 0 (W15 m ρ c (Proc.devRef .tc main_v40)) slices_S500736x1_S500000x1_0_0 e q ⟨e.val, he⟩
    (Nat.zero_add _).symm).trans ?_
  refine (congrFun (v40_eq m ρ c) (ix2 ⟨e.val, he⟩ q)).trans ?_
  unfold KBlocks1.G KBlocks1.rowFn EdgeMlp.scores EdgeMlp.xrow
  refine mlp_congr (funext fun k => ?_) (funext fun k => ?_) (funext fun k => ?_)
    ((KHost.v2_kept m ρ c).trans (KHost.v2_eq m ρ c)) ((KHost.arg5_kept m ρ c).trans (KHost.arg5_eq m ρ c))
    ((KHost.v3_kept m ρ c).trans (KHost.v3_eq m ρ c)) ((KHost.arg7_kept m ρ c).trans (KHost.arg7_eq m ρ c))
    ((KHost.v4_kept m ρ c).trans (KHost.v4_eq m ρ c)) ((KHost.arg9_kept m ρ c).trans (KHost.arg9_eq m ρ c))
  · exact (congrFun (KHost.v31_kept m ρ c) (ix2 ⟨e.val, he⟩ k)).trans (KHost.v31_row m ρ c ⟨e.val, he⟩ e.isLt k)
  · exact (congrFun (KHost.v38_kept m ρ c) (ix2 ⟨e.val, he⟩ k)).trans (KHost.v38_row m ρ c ⟨e.val, he⟩ e.isLt k)
  · exact (congrFun (KHost.v10_kept m ρ c) (ix2 ⟨e.val, he⟩ k)).trans (KHost.v10_row m ρ c ⟨e.val, he⟩ e.isLt k)

/-! ### The kernel's run -/

/-- Every weakly fair execution of the kernel's program terminates, nothing faulting, with the two result buffers at
    the two edge types' scores and every argument as launched. -/
theorem run_scores : θ_run defs (onTc (τ := τ) (main (F := Ideal))) ⟨m, fun _ => 0, ρ⟩ (fun r => ∀ c : Dev nD,
      r.2.mem ((c.tc : Thread nD τ).loc main_v41) = EdgeMlp.scores (Ns := 100000) (Nd := 50000) (E := 500000) (by decide) (by decide) 100000#32 50000#32
        (m ((c.tc : Thread nD τ).loc main_arg0)) (m ((c.tc : Thread nD τ).loc main_arg1)) (m ((c.tc : Thread nD τ).loc main_arg2)) (m ((c.tc : Thread nD τ).loc main_arg10)) (m ((c.tc : Thread nD τ).loc main_arg11))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v42) = EdgeMlp.scores (Ns := 50000) (Nd := 100000) (E := 500000) (by decide) (by decide) 50000#32 100000#32
        (m ((c.tc : Thread nD τ).loc main_arg1)) (m ((c.tc : Thread nD τ).loc main_arg0)) (m ((c.tc : Thread nD τ).loc main_arg3)) (m ((c.tc : Thread nD τ).loc main_arg12)) (m ((c.tc : Thread nD τ).loc main_arg13))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v41 (by decide))).trans (out_orders m ρ c),
     (h c _ (mem_uc main_v42 (by decide))).trans (out_rev m ρ c),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c),
     (h c _ (mem_uc main_arg4 (by decide))).trans (W16_main_arg4 m ρ c),
     (h c _ (mem_uc main_arg5 (by decide))).trans (W16_main_arg5 m ρ c),
     (h c _ (mem_uc main_arg6 (by decide))).trans (W16_main_arg6 m ρ c),
     (h c _ (mem_uc main_arg7 (by decide))).trans (W16_main_arg7 m ρ c),
     (h c _ (mem_uc main_arg8 (by decide))).trans (W16_main_arg8 m ρ c),
     (h c _ (mem_uc main_arg9 (by decide))).trans (W16_main_arg9 m ρ c),
     (h c _ (mem_uc main_arg10 (by decide))).trans (W16_main_arg10 m ρ c),
     (h c _ (mem_uc main_arg11 (by decide))).trans (W16_main_arg11 m ρ c),
     (h c _ (mem_uc main_arg12 (by decide))).trans (W16_main_arg12 m ρ c),
     (h c _ (mem_uc main_arg13 (by decide))).trans (W16_main_arg13 m ρ c)⟩) (KRun.run_all m ρ)

end Cert.KernelIdeal.KValue

end
-- ==== Proof.lean ====
/-
  Two edge types of a bipartite graph, one perceptron.  For every edge the kernel and the reference both compute

      logistic (relu (relu (x W1 + b1) W2 + b2) W3 + b3),    x = (source row, destination row, edge features),

  where a row of an embedding table is chosen by the edge's index word, wrapped once when negative and clamped
  into the table.  Over the extended reals the two programs are the same function of the arguments:

  * the kernel narrows the tables and the weights to sixteen bits, which is the identity on exact values;
  * it pads the edges to a whole number of 1024-row blocks, gathers outside the two launches, lays the three
    pieces side by side in a scratch block and multiplies block by block; a row of a product depends on that row
    of the left factor only, so each launch's result array is, row by row, the perceptron of the edge's input
    row, and the final slice drops exactly the padded rows;
  * its matrix products accumulate into a zero splat where the reference's have no accumulator (0 + s = s), its
    logistic is by definition 1 / (1 + exp (-x)), which the reference spells out, and no sum is reordered
    across a distributive law, so nothing here needs the inputs to be finite.

  Both runs are therefore posted at ONE term, `EdgeMlp.scores` of the argument arrays (Proof/Spec.lean), once per
  edge type; the arguments of the two programs agree by hypothesis.  The ideal pass rewrote nothing, so the
  idealization claim is `True`.  The three frame claims are the two programs' generated frames and the
  reference's run with its results dropped.
-/
import proofs.«410395_j88622355186219_3_alg».proof.Defs
import proofs.«410395_j88622355186219_3_alg».proof.Proof.Gen.Kernel
import proofs.«410395_j88622355186219_3_alg».proof.Proof.Gen.Kernel.Frame
import proofs.«410395_j88622355186219_3_alg».proof.Proof.Gen.KernelIdeal
import proofs.«410395_j88622355186219_3_alg».proof.Proof.Gen.KernelIdeal.Frame
import proofs.«410395_j88622355186219_3_alg».proof.Proof.Gen.ReferenceIdeal
import proofs.«410395_j88622355186219_3_alg».proof.Proof.Gen.ReferenceIdeal.Run
import proofs.«410395_j88622355186219_3_alg».proof.Proof.Gen.ReferenceIdeal.Read
import proofs.«410395_j88622355186219_3_alg».proof.Proof.Gen.Pre_finite_inputs
import proofs.«410395_j88622355186219_3_alg».proof.Proof.RefValue
import proofs.«410395_j88622355186219_3_alg».proof.Proof.KValue
import Idealize.ShloMosaic.Adequacy
import Idealize.ShloMosaic.Init

noncomputable section

namespace Cert.Proof

open Idealize.ShloMosaic Idealize.SL.Sem

/-- The kernel's word-level program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no launch: its frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both idealized programs end, from memories that agree on the arguments, with each edge type's scores at the
    one specification term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => EdgeMlp.scores (Ns := 100000) (Nd := 50000) (E := 500000) (by decide) (by decide) 100000#32 50000#32 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => EdgeMlp.scores (Ns := 50000) (Nd := 100000) (E := 500000) (by decide) (by decide) 50000#32 100000#32 (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run_scores m ρ, ?_⟩
  refine (θ_run Cert.ReferenceIdeal.defs _ _).mono (fun r h c => ?_) (Cert.ReferenceIdeal.RefValue.run_scores m' ρ')
  obtain ⟨a0, a1, a2, a3, a4, a5, a6, a7, a8, a9, a10, a11, a12, a13⟩ := hagree c
  refine ⟨(h c).1.trans ?_, (h c).2.1.trans ?_, (h c).2.2⟩
  · rw [a0, a1, a2, a10, a11, a4, a5, a6, a7, a8, a9]
  · rw [a1, a0, a3, a12, a13, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
